-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x1024 : Shape := ⟨3, ![16384, 1, 1024]⟩
abbrev S1x1024 : Shape := ⟨2, ![1, 1024]⟩
abbrev S16384x1 : Shape := ⟨2, ![16384, 1]⟩
abbrev S1024x1024 : Shape := ⟨2, ![1024, 1024]⟩
abbrev S_ : Shape := ⟨0, ![]⟩

class Facts : Prop where
  bcast_S_S16384x1x1024 : S_.BroadcastsInDim S16384x1x1024 (![] : Fin 0 → Fin S16384x1x1024.rank)
  reducesTo_S16384x1x1024_S_d0_1_2 : S16384x1x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  reducesTo_S16384x1_S_d0_1 : S16384x1.ReducesTo [0, 1] S_

variable [Facts]

def fn_part1 {F : FTy → Type} [FloatOps F] (main_arg2 : IVec S16384x1 1) (main_arg5 : FVec F S1x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1x1024 .f32 := Host.absf main_arg5
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_c_8 : IVec S_ 1 := constantI S_ 1 1#1
  let main_v24 : IVec S_ 1 := (fun x v => Host.reduce IntOp.andi x v reducesTo_S16384x1_S_d0_1 h_S_) main_arg2 main_c_8
  let main_v25 : IVec S_ 1 := noti main_v24
  let main_v26 : IVec S_ 1 := andi main_v23 main_v25
  main_v26

def fn {F : FTy → Type} [FloatOps F] (main_arg0 : FVec F S16384x1x1024 .f32) (main_arg1 : FVec F S1x1024 .f32) (main_arg2 : IVec S16384x1 1) (main_arg3 : FVec F S1024x1024 .f32) (main_arg4 : FVec F S1024x1024 .f32) (main_arg5 : FVec F S1x1024 .f32) : IVec S_ 1 :=
  let main_v0 : FVec F S16384x1x1024 .f32 := Host.absf main_arg0
  let main_cst : FVec F S_ .f32 := constant S_ .f32 0x7F800000#32
  let main_v1 : FVec F S16384x1x1024 .f32 := broadcastInDim S16384x1x1024 ![] bcast_S_S16384x1x1024 main_cst
  let main_v2 : IVec S16384x1x1024 1 := cmpf .olt main_v0 main_v1
  let main_c : IVec S_ 1 := constantI S_ 1 1#1
  let main_v3 : IVec S_ 1 := (fun x v => Host.reduce IntOp.andi x v reducesTo_S16384x1x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg2 main_arg5 main_v13 main_v16
-- ==== Kernel.lean ====
abbrev S16384x1x1024 : Shape := ⟨3, ![16384, 1, 1024]⟩
abbrev S1x1024 : Shape := ⟨2, ![1, 1024]⟩
abbrev S16384x1 : Shape := ⟨2, ![16384, 1]⟩
abbrev S1024x1024 : Shape := ⟨2, ![1024, 1024]⟩
abbrev S16384x1024 : Shape := ⟨2, ![16384, 1024]⟩
abbrev S1x16384 : Shape := ⟨2, ![1, 16384]⟩
abbrev S2x1x1 : Shape := ⟨3, ![2, 1, 1]⟩
abbrev S2x1x1024 : Shape := ⟨3, ![2, 1, 1024]⟩
abbrev S1x1x1 : Shape := ⟨3, ![1, 1, 1]⟩
abbrev S1x1x1024 : Shape := ⟨3, ![1, 1, 1024]⟩
abbrev S1x1 : Shape := ⟨2, ![1, 1]⟩
abbrev S1 : Shape := ⟨1, ![1]⟩
abbrev S2 : Shape := ⟨1, ![2]⟩
abbrev S2x1024 : Shape := ⟨2, ![2, 1024]⟩
abbrev S_ : Shape := ⟨0, ![]⟩
abbrev S2x1 : Shape := ⟨2, ![2, 1]⟩
abbrev S1024 : Shape := ⟨1, ![1024]⟩

abbrev nBuf : Space → Nat
  | .hbm => 35
  | .vmem => 18
  | .smem => 0
  | _ => 0

abbrev bufTy : (tb : Table) → Fin (tcTables nBuf tb) → BufTy
  | .hbm, ⟨0, _⟩ => ⟨S16384x1x1024, .f32⟩
  | .hbm, ⟨1, _⟩ => ⟨S1x1024, .f32⟩
  | .hbm, ⟨2, _⟩ => ⟨S16384x1, .i1⟩
  | .hbm, ⟨3, _⟩ => ⟨S1024x1024, .f32⟩
  | .hbm, ⟨4, _⟩ => ⟨S1024x1024, .f32⟩
  | .hbm, ⟨5, _⟩ => ⟨S1x1024, .f32⟩
  | .hbm, ⟨6, _⟩ => ⟨S16384x1024, .f32⟩
  | .hbm, ⟨7, _⟩ => ⟨S1x16384, .i1⟩
  | .hbm, ⟨8, _⟩ => ⟨S1x1024, .f32⟩
  | .hbm, ⟨9, _⟩ => ⟨S1024x1024, .bf16⟩
  | .hbm, ⟨10, _⟩ => ⟨S1x1024, .bf16⟩
  | .hbm, ⟨11, _⟩ => ⟨S1x16384, .i32⟩
  | .hbm, ⟨12, _⟩ => ⟨S1x16384, .f32⟩
  | .hbm, ⟨13, _⟩ => ⟨S2x1x1, .f32⟩
  | .hbm, ⟨14, _⟩ => ⟨S2x1x1, .f32⟩
  | .hbm, ⟨15, _⟩ => ⟨S2x1x1024, .f32⟩
  | .hbm, ⟨16, _⟩ => ⟨S2, .f32⟩
  | .hbm, ⟨17, _⟩ => ⟨S2, .f32⟩
  | .hbm, ⟨18, _⟩ => ⟨S2x1024, .f32⟩
  | .hbm, ⟨19, _⟩ => ⟨S_, .f32⟩
  | .hbm, ⟨20, _⟩ => ⟨S_, .f32⟩
  | .hbm, ⟨21, _⟩ => ⟨S2, .f32⟩
  | .hbm, ⟨22, _⟩ => ⟨S2, .f32⟩
  | .hbm, ⟨23, _⟩ => ⟨S2, .f32⟩
  | .hbm, ⟨24, _⟩ => ⟨S2, .f32⟩
  | .hbm, ⟨25, _⟩ => ⟨S_, .f32⟩
  | .hbm, ⟨26, _⟩ => ⟨S_, .f32⟩
  | .hbm, ⟨27, _⟩ => ⟨S2x1, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S16384x1, .f32⟩
  | .local _ .vmem, ⟨0, _⟩ => ⟨S1024x1024, .f32⟩
  | .local _ .vmem, ⟨1, _⟩ => ⟨S1024x1024, .f32⟩
  | .local _ .vmem, ⟨2, _⟩ => ⟨S1x1024, .i32⟩
  | .local _ .vmem, ⟨3, _⟩ => ⟨S1x1024, .i32⟩
  | .local _ .vmem, ⟨4, _⟩ => ⟨S1x1024, .f32⟩
  | .local _ .vmem, ⟨5, _⟩ => ⟨S1024x1024, .bf16⟩
  | .local _ .vmem, ⟨6, _⟩ => ⟨S1x1024, .bf16⟩
  | .local _ .vmem, ⟨7, _⟩ => ⟨S1x1024, .f32⟩
  | .local _ .vmem, ⟨8, _⟩ => ⟨S1x1024, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1024, .f32⟩
  | .local _ .vmem, ⟨14, _⟩ => ⟨S1x1x1024, .f32⟩
  | .local _ .vmem, ⟨15, _⟩ => ⟨S1x1, .f32⟩
  | .local _ .vmem, ⟨16, _⟩ => ⟨S1x1, .f32⟩
  | .local _ .vmem, ⟨17, _⟩ => ⟨S1x1024, .f32⟩
  | _, _ => ⟨S16384x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S16384x1x1024_S16384x1024 : S16384x1x1024.ShapeCasts S16384x1024
  transposes_S16384x1_S1x16384_1_0 : S16384x1.Transposes [1, 0] S1x16384
  bitsLt_bf16_f32 : FTy.bits .bf16 < FTy.bits .f32
  natLt_1_32 : 1 < 32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S1024x1024 : S1x1024.Broadcasts S1024x1024
  reduces_S1x1024_S1 : S1x1024.Reduces [1] S1
  shapeCasts_S1_S1x1 : S1.ShapeCasts S1x1
  broadcasts_S1x1_S1x1024 : S1x1.Broadcasts S1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S2x1x1_S2 : S2x1x1.ShapeCasts S2
  shapeCasts_S2x1x1024_S2x1024 : S2x1x1024.ShapeCasts S2x1024
  reducesTo_S2_S_d0 : S2.ReducesTo [0] S_
  h_S_ : 0 < S_.numel
  bcast_S_S2 : S_.BroadcastsInDim S2 (![] : Fin 0 → Fin S2.rank)
  bcast_S2_S2x1_0 : S2.BroadcastsInDim S2x1 (![0] : Fin 1 → Fin S2x1.rank)
  bcast_S2x1_S2x1024_0_1 : S2x1.BroadcastsInDim S2x1024 (![0, 1] : Fin 2 → Fin S2x1024.rank)
  reducesTo_S2x1024_S1024_d0 : S2x1024.ReducesTo [0] S1024
  bcast_S_S1024 : S_.BroadcastsInDim S1024 (![] : Fin 0 → Fin S1024.rank)
  shapeCasts_S1x16384_S16384x1 : S1x16384.ShapeCasts S16384x1
  dot_S1x1024_S1024x1024_S1x1024_1_1_0_0_n_n_wf : DotDims.WF S1x1024 S1024x1024 S1x1024 [1] [1] [0] [0] [] []
  dot_S1024x1024_S1024x1024_S1024x1024_1_1_0_0_n_n_wf : DotDims.WF S1024x1024 S1024x1024 S1024x1024 [1] [1] [0] [0] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .i32 = 32 ∨ (Rect.block (s := S1x16384) S1x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .bf16 = 32 ∨ (Rect.block (s := S1x1024) S1x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x16384.size a
  hwx0_5 : ∀ i : grid0.Coords, EltTy.bits .f32 = 32 ∨ (Rect.block (s := S1x16384) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S2x1x1024.size a
  hwx0_8 : ∀ i : grid0.Coords, EltTy.bits .f32 = 32 ∨ (Rect.block (s := S2x1x1024) S1x1x1024.size (cc0_transform_8 i) (hinb0_8 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S1x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_3) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16384x1x1024 : Shape := ⟨3, ![16384, 1, 1024]⟩
abbrev S1x1024 : Shape := ⟨2, ![1, 1024]⟩
abbrev S16384x1 : Shape := ⟨2, ![16384, 1]⟩
abbrev S1024x1024 : Shape := ⟨2, ![1024, 1024]⟩
abbrev S16384x1024 : Shape := ⟨2, ![16384, 1024]⟩
abbrev S1024x1 : Shape := ⟨2, ![1024, 1]⟩
abbrev S_ : Shape := ⟨0, ![]⟩
abbrev S1 : Shape := ⟨1, ![1]⟩
abbrev S1x1 : Shape := ⟨2, ![1, 1]⟩
abbrev S1024 : Shape := ⟨1, ![1024]⟩

abbrev nBuf : Space → Nat
  | .hbm => 38
  | .vmem => 0
  | .smem => 0
  | _ => 0

abbrev bufTy : (tb : Table) → Fin (tcTables nBuf tb) → BufTy
  | .hbm, ⟨0, _⟩ => ⟨S16384x1x1024, .f32⟩
  | .hbm, ⟨1, _⟩ => ⟨S1x1024, .f32⟩
  | .hbm, ⟨2, _⟩ => ⟨S16384x1, .i1⟩
  | .hbm, ⟨3, _⟩ => ⟨S1024x1024, .f32⟩
  | .hbm, ⟨4, _⟩ => ⟨S1024x1024, .f32⟩
  | .hbm, ⟨5, _⟩ => ⟨S1x1024, .f32⟩
  | .hbm, ⟨6, _⟩ => ⟨S16384x1024, .f32⟩
  | .hbm, ⟨7, _⟩ => ⟨S1024x1024, .f32⟩
  | .hbm, ⟨8, _⟩ => ⟨S1x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S1024x1, .f32⟩
  | .hbm, ⟨15, _⟩ => ⟨S16384x1, .f32⟩
  | .hbm, ⟨16, _⟩ => ⟨S_, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1x1, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S1, .f32⟩
  | .hbm, ⟨31, _⟩ => ⟨S1x1, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | _, _ => ⟨S16384x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  shapeCasts_S16384x1x1024_S16384x1024 : S16384x1x1024.ShapeCasts S16384x1024
  transposes_S1024x1024_S1024x1024_1_0 : S1024x1024.Transposes [1, 0] S1024x1024
  bcast_S1x1024_S16384x1024_0_1 : S1x1024.BroadcastsInDim S16384x1024 (![0, 1] : Fin 2 → Fin S16384x1024.rank)
  transposes_S1x1024_S1024x1_1_0 : S1x1024.Transposes [1, 0] S1024x1
  bcast_S_S16384x1 : S_.BroadcastsInDim S16384x1 (![] : Fin 0 → Fin S16384x1.rank)
  reducesTo_S16384x1_S1_d0 : S16384x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S16384x1_S16384x1024_0_1 : S16384x1.BroadcastsInDim S16384x1024 (![0, 1] : Fin 2 → Fin S16384x1024.rank)
  reducesTo_S16384x1024_S1024_d0 : S16384x1024.ReducesTo [0] S1024
  dot_S1x1024_S1024x1024_S1x1024_1_0_0_1_n_n_wf : DotDims.WF S1x1024 S1024x1024 S1x1024 [1] [0] [0] [1] [] []
  dot_S16384x1024_S1024x1024_S16384x1024_1_0_0_1_n_n_wf : DotDims.WF S16384x1024 S1024x1024 S16384x1024 [1] [0] [0] [1] [] []
  dot_S16384x1024_S1024x1_S16384x1_1_0_0_1_n_n_wf : DotDims.WF S16384x1024 S1024x1 S16384x1 [1] [0] [0] [1] [] []

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.Spec.lean ====
/-
  The mathematics of this certificate, over the extended reals, with no program in sight.

  A sequence of 16384 masked logits u (each a real number or -∞) and a real 16384 × 1024 matrix e are given.
  The reference takes the softmax of u over all positions and the weighted sum of e's rows.
  The kernel walks u in 16 tiles of 1024 positions, eight per core; each core keeps a running maximum m, a running
  normaliser l = ∑ exp (u s - m) and a running weighted sum acc h = ∑ exp (u s - m) · e s h over the positions seen so far,
  rescaling l and acc by exp (m_old - m_new) whenever the maximum moves; the two cores' states are then merged the same way
  and the quotient acc / l is taken once.

  With the conventions of the extended reals (-∞ - x = -∞ for every x, exp (-∞) = 0) the running state after any number of
  tiles is exactly (max, ∑ exp (u - max), ∑ exp (u - max) · e) over the positions seen, also when all of them are -∞;
  and when at least one position is a real number the merged quotient is the softmax-weighted sum.
-/
import Idealize.ShloMosaic.PureOps.Ideal
import Idealize.ShloMosaic.PureOps.Ideal.Laws
import Mathlib.Algebra.BigOperators.Fin

noncomputable section

namespace Cert.Attn

open Idealize.ShloMosaic
open scoped BigOperators

/-- Position i of tile n, as a position of the whole sequence (tiles past the sixteenth wrap around; never used there). -/
def tileIx (n : ℕ) (i : Fin 1024) : Fin 16384 := ⟨(1024 * n + i.val) % 16384, Nat.mod_lt _ (by norm_num)⟩

/-- The running state of one core: maximum, normaliser, weighted sum. -/
structure St where
  m : EReal
  l : EReal
  acc : Fin 1024 → EReal

/-- The state before a core's first tile. -/
def St.init : St := ⟨⊥, 0, fun _ => 0⟩

/-- The largest of a tile's logits (-∞ for a tile of -∞s). -/
def tileMax (u : Fin 1024 → EReal) : EReal := (Finset.univ : Finset (Fin 1024)).fold max ⊥ u

/-- One tile's update: the maximum moves to mN, the old normaliser and weighted sum are rescaled by exp (m - mN),
    and the tile's own terms are added. -/
def St.step (st : St) (u : Fin 1024 → EReal) (e : Fin 1024 → Fin 1024 → EReal) : St :=
  { m := max st.m (tileMax u)
    l := Ideal.exp (st.m - max st.m (tileMax u)) * st.l + ∑ s : Fin 1024, Ideal.exp (u s - max st.m (tileMax u))
    acc := fun h => Ideal.exp (st.m - max st.m (tileMax u)) * st.acc h
              + ∑ s : Fin 1024, Ideal.exp (u s - max st.m (tileMax u)) * e s h }

/-- The state after grid point n (points 0–7 are the first core's tiles, 8–15 the second's; each core starts afresh at its
    first tile). -/
def stAt (u : Fin 16384 → EReal) (e : Fin 16384 → Fin 1024 → EReal) : ℕ → St
  | 0 => St.init.step (fun i => u (tileIx 0 i)) (fun i h => e (tileIx 0 i) h)
  | n + 1 =>
    if (n + 1) % 8 = 0 then St.init.step (fun i => u (tileIx (n + 1) i)) (fun i h => e (tileIx (n + 1) i) h)
    else (stAt u e n).step (fun i => u (tileIx (n + 1) i)) (fun i h => e (tileIx (n + 1) i) h)

/-- The two cores' final states merged: the common maximum M (a fold of max from -∞ over the two), each core's weight
    exp (m_c - M), then the quotient of the weighted sums (each a sum from 0 over the two cores). -/
def merged (s0 s1 : St) (h : Fin 1024) : EReal :=
  Ideal.div
    (0 + ∑ c : Fin 2, (if c = 0 then s0.acc h else s1.acc h)
            * Ideal.exp ((if c = 0 then s0.m else s1.m) - (Finset.univ : Finset (Fin 2)).fold max ⊥ (fun c => if c = 0 then s0.m else s1.m)))
    (0 + ∑ c : Fin 2, (if c = 0 then s0.l else s1.l)
            * Ideal.exp ((if c = 0 then s0.m else s1.m) - (Finset.univ : Finset (Fin 2)).fold max ⊥ (fun c => if c = 0 then s0.m else s1.m)))

/-- The reference: softmax of u over all positions (the maximum M' = max ⊥ (fold of max from ⊥), the weights
    exp (u s - M'), their sum from 0, the quotient), then the weighted sum of e's column h, from 0. -/
def softmaxOut (u : Fin 16384 → EReal) (e : Fin 16384 → Fin 1024 → EReal) (h : Fin 1024) : EReal :=
  0 + ∑ s : Fin 16384,
        Ideal.div (Ideal.exp (u s - max ⊥ ((Finset.univ : Finset (Fin 16384)).fold max ⊥ u)))
                  (0 + ∑ s' : Fin 16384, Ideal.exp (u s' - max ⊥ ((Finset.univ : Finset (Fin 16384)).fold max ⊥ u)))
          * e s h

end Cert.Attn

end
-- ==== Proof.Blocks.lean ====
/-
  Which entries of the arrays each grid point reads.

  Grid point t (0 ≤ t < 16) is tile t of the sequence: rows 1024·t … 1024·t + 1023 of the encoder matrix, the same
  positions of the mask row, and the whole of d, W1 and V.
-/
import proofs.«423131_j63548336112291_3_alg».proof.Proof.Gen.KernelIdeal.Frame
import proofs.«423131_j63548336112291_3_alg».proof.Proof.Spec
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ)

/-- The arrays the region finds, each at its literal type: the encoder matrix, the widened mask row, d, W1, V. -/
abbrev encArr (c : Dev nD) : Vec Ideal S16384x1024 .f32 := V m c main_v0
abbrev maskArr (c : Dev nD) : Vec Ideal S1x16384 .i32 := V m c main_v5
abbrev dArr (c : Dev nD) : Vec Ideal S1x1024 .f32 := V m c main_v2
abbrev w1Arr (c : Dev nD) : Vec Ideal S1024x1024 .bf16 := V m c main_v3
abbrev vArr (c : Dev nD) : Vec Ideal S1x1024 .bf16 := V m c main_v4

/-- The five input blocks of grid point t, each at its literal type. -/
abbrev encBlk (c : Dev nD) (t : Fin cfg0.N) : Vec Ideal S1024x1024 .f32 := iblk m c 0 t
abbrev maskBlk (c : Dev nD) (t : Fin cfg0.N) : Vec Ideal S1x1024 .i32 := iblk m c 1 t
abbrev dBlk (c : Dev nD) (t : Fin cfg0.N) : Vec Ideal S1x1024 .f32 := iblk m c 2 t
abbrev w1Blk (c : Dev nD) (t : Fin cfg0.N) : Vec Ideal S1024x1024 .bf16 := iblk m c 3 t
abbrev vBlk (c : Dev nD) (t : Fin cfg0.N) : Vec Ideal S1x1024 .bf16 := iblk m c 4 t

/-- The printed index maps, decided once over the sixteen grid points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val
    ∧ win0_6.index t (0 : Fin 3) = t.val / 8 ∧ win0_6.index t (1 : Fin 3) = 0 ∧ win0_6.index t (2 : Fin 3) = 0
    ∧ win0_7.index t (0 : Fin 3) = t.val / 8 ∧ win0_7.index t (1 : Fin 3) = 0 ∧ win0_7.index t (2 : Fin 3) = 0
    ∧ win0_8.index t (0 : Fin 3) = t.val / 8 ∧ win0_8.index t (1 : Fin 3) = 0 ∧ win0_8.index t (2 : Fin 3) = 0 :=
  (by decide +kernel : ∀ t : Fin grid0.N, _)

/-- The encoder block of tile t: row i of the block is row 1024·t + i of the matrix. -/
theorem enc_block (c : Dev nD) (t : Fin cfg0.N) (i h : Fin 1024) :
    encBlk m c t (ix2 i h) = encArr m c (ix2 (Cert.Attn.tileIx t.val i) h) := by
  obtain ⟨e0, e1, -⟩ := idx_facts t
  have hN : cfg0.N = 16 := N_0
  have ht := t.isLt
  show iblk m c _ t _ = _
  unfold iblk
  rw [View.read_apply]
  show V m c main_v0 _ = V m c main_v0 _
  congr 1
  funext a; apply Fin.ext
  match a with
  | ⟨0, _⟩ => show win0_0.index t 0 * 1024 + 1 * i.val = (1024 * t.val + i.val) % 16384; rw [e0]; omega
  | ⟨1, _⟩ => show win0_0.index t 1 * 1024 + 1 * h.val = h.val; rw [e1]; omega

/-- The mask block of tile t: the same positions of the one mask row. -/
theorem mask_block (c : Dev nD) (t : Fin cfg0.N) (i : Fin 1024) :
    maskBlk m c t (ix2 (0 : Fin 1) i) = maskArr m c (ix2 (0 : Fin 1) (Cert.Attn.tileIx t.val i)) := by
  obtain ⟨-, -, e0, e1, -⟩ := idx_facts t
  have hN : cfg0.N = 16 := N_0
  have ht := t.isLt
  show iblk m c _ t _ = _
  unfold iblk
  rw [View.read_apply]
  show V m c main_v5 _ = V m c main_v5 _
  congr 1
  funext a; apply Fin.ext
  match a with
  | ⟨0, _⟩ => show win0_1.index t 0 * 1 + 1 * 0 = 0; rw [e0]
  | ⟨1, _⟩ => show win0_1.index t 1 * 1024 + 1 * i.val = (1024 * t.val + i.val) % 16384; rw [e1]; omega

/-- The projection d is staged whole at every point. -/
theorem d_block (c : Dev nD) (t : Fin cfg0.N) (a : Fin 1024) :
    dBlk m c t (ix2 (0 : Fin 1) a) = dArr m c (ix2 (0 : Fin 1) a) := by
  obtain ⟨-, -, -, -, e0, e1, -⟩ := idx_facts t
  show iblk m c _ t _ = _
  unfold iblk
  rw [View.read_apply]
  show V m c main_v2 _ = V m c main_v2 _
  congr 1
  funext b; apply Fin.ext
  match b with
  | ⟨0, _⟩ => show win0_2.index t 0 * 1 + 1 * 0 = 0; rw [e0]
  | ⟨1, _⟩ => show win0_2.index t 1 * 1024 + 1 * a.val = a.val; rw [e1]; omega

/-- The weight matrix W1 is staged whole at every point. -/
theorem w1_block (c : Dev nD) (t : Fin cfg0.N) (a h : Fin 1024) :
    w1Blk m c t (ix2 a h) = w1Arr m c (ix2 a h) := by
  obtain ⟨-, -, -, -, -, -, e0, e1, -⟩ := idx_facts t
  show iblk m c _ t _ = _
  unfold iblk
  rw [View.read_apply]
  show V m c main_v3 _ = V m c main_v3 _
  congr 1
  funext b; apply Fin.ext
  match b with
  | ⟨0, _⟩ => show win0_3.index t 0 * 1024 + 1 * a.val = a.val; rw [e0]; omega
  | ⟨1, _⟩ => show win0_3.index t 1 * 1024 + 1 * h.val = h.val; rw [e1]; omega

/-- The scoring vector V is staged whole at every point. -/
theorem v_block (c : Dev nD) (t : Fin cfg0.N) (a : Fin 1024) :
    vBlk m c t (ix2 (0 : Fin 1) a) = vArr m c (ix2 (0 : Fin 1) a) := by
  obtain ⟨-, -, -, -, -, -, -, -, e0, e1, -⟩ := idx_facts t
  show iblk m c _ t _ = _
  unfold iblk
  rw [View.read_apply]
  show V m c main_v4 _ = V m c main_v4 _
  congr 1
  funext b; apply Fin.ext
  match b with
  | ⟨0, _⟩ => show win0_4.index t 0 * 1 + 1 * 0 = 0; rw [e0]
  | ⟨1, _⟩ => show win0_4.index t 1 * 1024 + 1 * a.val = a.val; rw [e1]; omega

/-- The masked logit of position s, from the arrays as the region finds them. -/
def uV (c : Dev nD) (s : Fin 16384) : EReal :=
  if maskArr m c (ix2 (0 : Fin 1) s) = 0#32 then
    ∑ a : Fin 1024, vArr m c (ix2 (0 : Fin 1) a)
      * Ideal.tanh (dArr m c (ix2 (0 : Fin 1) a) + ∑ h : Fin 1024, encArr m c (ix2 s h) * w1Arr m c (ix2 a h))
  else ⊥

/-- Row s of the encoder matrix, from the array as the region finds it. -/
def eV (c : Dev nD) (s : Fin 16384) (h : Fin 1024) : EReal := encArr m c (ix2 s h)

end Cert.KernelIdeal.Blocks

end
-- ==== Proof.Pieces.lean ====
/-
  What one run of the kernel body leaves behind, case by case, as the body's own payload terms.

  The body is run in three cases: a core's first tile (the running state is reset, then updated), a middle tile (updated),
  and a core's last tile (updated, then copied out). In each the masked logits of the tile are stored whole into the
  logits block, and the three running values — maximum, normaliser, weighted sum — are each stored whole; so each buffer,
  read back, is the one payload stored last, over the values the body loaded: the input blocks and, for the running
  values, what the tile before left (or, on a first tile, the reset values just stored).
-/
import proofs.«423131_j63548336112291_3_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid0.Coords) (arg2 : Memref sig .tc .vmem S1024x1024 .f32) (harg2 : arg2.IsWhole) (arg3 : Memref sig .tc .vmem S1x1024 .i32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .bf16) (harg6 : arg6.IsWhole) (arg7 : Memref sig .tc .vmem S1x1024 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1024 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S1x1024 .f32) (harg13 : arg13.IsWhole)

/-! ## A core's first tile -/
section first
variable (hc0 : cond0_0 i) (hc1 : ¬cond0_1 i) (x0 : Vec F S1024x1024 .f32) (x1 : Vec F S1x1024 .i32) (x2 : Vec F S1x1024 .f32) (x3 : Vec F S1024x1024 .bf16) (x4 : Vec F S1x1024 .bf16)

theorem first_logits : out0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay16 x0 x3 x2 x4 x1 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem first_max : sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay6 (k0_pay10 (F := F)) (k0_pay18 x0 x3 x2 x4 x1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem first_norm : sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay4 (k0_pay17 x0 x3 x2 x4 x1) (k0_pay10 (F := F)) (k0_pay11 (F := F)) (k0_pay18 x0 x3 x2 x4 x1) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem first_acc : sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 = k0_pay5 (k0_pay13 x0) (k0_pay17 x0 x3 x2 x4 x1) (k0_pay10 (F := F)) (k0_pay12 (F := F)) (k0_pay18 x0 x3 x2 x4 x1) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4)]
  unfold kernelRun0_A
  dsimp only
  sl_unfold_words
  rw [View.canon_cons_unit_zero (S := S1x1024) hz2, View.readCov_unit_zero (S := S1x1024) _ hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

end first

/-! ## A middle tile -/
section middle
variable (hc0 : ¬cond0_0 i) (hc1 : ¬cond0_1 i) (x0 : Vec F S1024x1024 .f32) (x1 : Vec F S1x1024 .i32) (x2 : Vec F S1x1024 .f32) (x3 : Vec F S1024x1024 .bf16) (x4 : Vec F S1x1024 .bf16) (xs0 : Vec F S1x1 .f32) (xs1 : Vec F S1x1 .f32) (xs2 : Vec F S1x1024 .f32)

theorem middle_logits : out0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay16 x0 x3 x2 x4 x1 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem middle_max : sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay6 xs0 (k0_pay18 x0 x3 x2 x4 x1) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem middle_norm : sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay4 (k0_pay17 x0 x3 x2 x4 x1) xs0 xs1 (k0_pay18 x0 x3 x2 x4 x1) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem middle_acc : sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay5 (k0_pay13 x0) (k0_pay17 x0 x3 x2 x4 x1) xs0 xs2 (k0_pay18 x0 x3 x2 x4 x1) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

end middle

/-! ## A core's last tile -/
section last
variable (hc0 : ¬cond0_0 i) (hc1 : cond0_1 i) (x0 : Vec F S1024x1024 .f32) (x1 : Vec F S1x1024 .i32) (x2 : Vec F S1x1024 .f32) (x3 : Vec F S1024x1024 .bf16) (x4 : Vec F S1x1024 .bf16) (xs0 : Vec F S1x1 .f32) (xs1 : Vec F S1x1 .f32) (xs2 : Vec F S1x1024 .f32)

theorem last_logits : out0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay16 x0 x3 x2 x4 x1 := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem last_max : sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay6 xs0 (k0_pay18 x0 x3 x2 x4 x1) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem last_norm : sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay4 (k0_pay17 x0 x3 x2 x4 x1) xs0 xs1 (k0_pay18 x0 x3 x2 x4 x1) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem last_acc : sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay5 (k0_pay13 x0) (k0_pay17 x0 x3 x2 x4 x1) xs0 xs2 (k0_pay18 x0 x3 x2 x4 x1) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem last_out_max : out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay7 (k0_pay6 xs0 (k0_pay18 x0 x3 x2 x4 x1)) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem last_out_norm : out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay8 (k0_pay4 (k0_pay17 x0 x3 x2 x4 x1) xs0 xs1 (k0_pay18 x0 x3 x2 x4 x1)) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

theorem last_out_acc : out0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2 = k0_pay9 (k0_pay5 (k0_pay13 x0) (k0_pay17 x0 x3 x2 x4 x1) xs0 xs2 (k0_pay18 x0 x3 x2 x4 x1)) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 arg13 harg13 hc0 hc1 x0 x1 x2 x3 x4 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg11.read_unread, harg12.read_unread, harg13.read_unread, View.ld_unit_zero (S := S1024x1024) hz2, View.ld_unit_zero (S := S1x1024) hz2, View.ld_unit_zero (S := S1x1) hz2, View.readCov_unit_zero (S := S1x1) _ hz2, View.readCov_unit_zero (S := S1x1024) _ hz2]

end last

end

end Cert.KernelIdeal.Pieces

end
-- ==== Proof.LibTransposedMatmul.lean ====
/-
  A general fact about matrix products whose right operand is stored transposed, at the extended reals.

  The dimension numbers contract the SECOND axis of both operands: an M × K matrix l against an N × K matrix r, whose
  row q is the weight row of output column q. Entry (p, q) of the product pairs row p of l with row q of r.

  `matmul_transposed_acc_apply`: into any accumulator, entry (p, q) is the accumulator's entry plus the sum over k of
  l[p, k] · r[q, k].
  `matmul_transposed_apply`: into the zero accumulator, just that sum.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable {M K N : ℕ}

/-- The left operand's index at output index j and contraction index k: row j 0 … -/
theorem transposed_lhs_0 (j : (⟨2, ![M, N]⟩ : Shape).Idx) (k : (DotDims.transposedRhs M K N).contr.Idx) :
    ((DotDims.transposedRhs M K N).lhsIdx j k 0).val = (j 0).val := rfl

/-- … and column k. -/
theorem transposed_lhs_1 (j : (⟨2, ![M, N]⟩ : Shape).Idx) (k : (DotDims.transposedRhs M K N).contr.Idx) :
    ((DotDims.transposedRhs M K N).lhsIdx j k 1).val = (k ⟨0, Nat.one_pos⟩).val := rfl

/-- The right operand's index: row j 1 (the output's column) … -/
theorem transposed_rhs_0 (j : (⟨2, ![M, N]⟩ : Shape).Idx) (k : (DotDims.transposedRhs M K N).contr.Idx) :
    ((DotDims.transposedRhs M K N).rhsIdx j k 0).val = (j 1).val := rfl

/-- … and column k. -/
theorem transposed_rhs_1 (j : (⟨2, ![M, N]⟩ : Shape).Idx) (k : (DotDims.transposedRhs M K N).contr.Idx) :
    ((DotDims.transposedRhs M K N).rhsIdx j k 1).val = (k ⟨0, Nat.one_pos⟩).val := rfl

/-- The contraction's sum at entry (p, q), re-indexed by the one contracted coordinate: ∑ k, l[p, k] · r[q, k]. -/
theorem sum_transposed {φ₁ φ₂ : FTy} (l : FVec Ideal ⟨2, ![M, K]⟩ φ₁) (r : FVec Ideal ⟨2, ![N, K]⟩ φ₂) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact transposed_lhs_0 _ _
      | ⟨1, _⟩ => exact (transposed_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact transposed_rhs_0 _ _
      | ⟨1, _⟩ => exact (transposed_rhs_1 _ _).trans hk)
  rw [el, er]

/-- A product with the right operand transposed, into any accumulator: at entry (p, q), acc[p, q] + ∑ k, l[p, k] · r[q, k]. -/
theorem matmul_transposed_acc_apply {φ₁ φ₂ : FTy} (prec : Option ContractPrecision) (l : FVec Ideal ⟨2, ![M, K]⟩ φ₁)
    (r : FVec Ideal ⟨2, ![N, K]⟩ φ₂) (acc : FVec Ideal ⟨2, ![M, N]⟩ .f32) (p : Fin M) (q : Fin N) :
    FloatOps.matmul (DotDims.transposedRhs M K N) prec l r acc (ix2 p q)
      = acc (ix2 p q) + ∑ k : Fin K, l (ix2 p k) * r (ix2 q k) := by
  rw [Ideal.matmul_apply, sum_transposed]

/-- Into the zero accumulator: at entry (p, q), ∑ k, l[p, k] · r[q, k]. -/
theorem matmul_transposed_apply {φ₁ φ₂ : FTy} (prec : Option ContractPrecision) (l : FVec Ideal ⟨2, ![M, K]⟩ φ₁)
    (r : FVec Ideal ⟨2, ![N, K]⟩ φ₂) (p : Fin M) (q : Fin N) :
    FloatOps.matmul (DotDims.transposedRhs M K N) prec l r (constant (F := Ideal) ⟨2, ![M, N]⟩ .f32 0x00000000#32) (ix2 p q)
      = ∑ k : Fin K, l (ix2 p k) * r (ix2 q k) := by
  rw [Ideal.matmul_constant_zero_apply, sum_transposed]

end Cert.LibTransposedMatmul

end
-- ==== Proof.PayIdx.lean ====
/-
  One grid point of the tiled attention kernel, read entry by entry over the extended reals.

  The tile's logits: position i of the tile has the logit ∑ a, V a · tanh (d a + ∑ h, enc i h · W1 a h), the activations
  being one matrix product (the tile's block of the encoder output against W1, whose rows are the output units' weights)
  and the logits a second one (V against the activations, again row against row); a position whose mask word is not
  zero has the logit -∞, both in the stored logits (filled with the word of -∞) and in the ones the running state reads
  (filled with a named constant whose value is -∞). The tile's maximum is the fold of max from -∞ over them.

  The update: with m, l, acc the running maximum, normaliser and weighted sum, the point leaves
    max m (tile maximum),   exp (m - mN) · l + ∑ s, exp (u s - mN),   exp (m - mN) · acc h + ∑ s, exp (u s - mN) · enc s h,
  the last sum an ordinary matrix product of the weights' row against the tile's block: this is the specification's
  one-tile step on the state the three scratch buffers hold.

  Also the scratch's initial values (-∞, 0, 0) and the three write-backs, which only add a unit axis.
-/
import proofs.«423131_j63548336112291_3_alg».proof.Proof.Gen.KernelIdeal.Skeleton
import proofs.«423131_j63548336112291_3_alg».proof.Proof.Spec
import proofs.«423131_j63548336112291_3_alg».proof.Proof.LibTransposedMatmul
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayIdx

open Idealize.ShloMosaic Idealize.ShloMosaic.ValueIdx Cert.KernelIdeal Cert.KernelIdeal.Gen
open scoped BigOperators

/-! ## The words of the two fills and of zero -/

/-- The word 0xFF800000 is -∞. -/
theorem ofBits_neg_inf : Ideal.ofBits .f32 0xFF800000#32 = ⊥ := by simp [Ideal.ofBits, Ideal.ieee]

/-- The named fill is -∞: the certificate's table gives the name that value. -/
theorem named_neg_big : Named.named (F := Ideal) κ "neg_big" (φ := .f32) 0xFF333332#32 = ⊥ :=
  IdealRules.named_const.ideal_named_scalar _ _ _ _ rfl

/-! ## The three dimension-number records are the library's -/

theorem dotTT_eq : dot_S1024x1024_S1024x1024_S1024x1024_1_1_0_0_n_n = DotDims.transposedRhs 1024 1024 1024 := rfl
theorem dotVT_eq : dot_S1x1024_S1024x1024_S1x1024_1_1_0_0_n_n = DotDims.transposedRhs 1 1024 1024 := rfl
theorem dotPlain_eq : dot_S1x1024_S1024x1024_S1x1024_1_0_0_1_n_n = DotDims.plain 1 1024 1024 := rfl

/-! ## The scratch's initial values and the three write-backs -/

theorem pay10_apply : k0_pay10 (F := Ideal) (ix2 (0 : Fin 1) (0 : Fin 1)) = ⊥ := by
  unfold k0_pay10
  rw [shapeCast_self]
  exact ofBits_neg_inf

theorem pay11_apply : k0_pay11 (F := Ideal) (ix2 (0 : Fin 1) (0 : Fin 1)) = 0 := by
  unfold k0_pay11
  rw [shapeCast_self]
  exact Ideal.ofBits_zero_f32

theorem pay12_apply (h : Fin 1024) : k0_pay12 (F := Ideal) (ix2 (0 : Fin 1) h) = 0 := by
  unfold k0_pay12
  rw [shapeCast_self]
  exact Ideal.ofBits_zero_f32

theorem pay7_apply (v : Vec Ideal S1x1 .f32) :
    k0_pay7 (F := Ideal) v (ix3 (0 : Fin 1) (0 : Fin 1) (0 : Fin 1)) = v (ix2 (0 : Fin 1) (0 : Fin 1)) := by
  unfold k0_pay7
  exact shapeCast_ab_1ab_apply v _ _ _ _

theorem pay8_apply (v : Vec Ideal S1x1 .f32) :
    k0_pay8 (F := Ideal) v (ix3 (0 : Fin 1) (0 : Fin 1) (0 : Fin 1)) = v (ix2 (0 : Fin 1) (0 : Fin 1)) := by
  unfold k0_pay8
  exact shapeCast_ab_1ab_apply v _ _ _ _

theorem pay9_apply (v : Vec Ideal S1x1024 .f32) (h : Fin 1024) :
    k0_pay9 (F := Ideal) v (ix3 (0 : Fin 1) (0 : Fin 1) h) = v (ix2 (0 : Fin 1) h) := by
  unfold k0_pay9
  exact shapeCast_ab_1ab_apply v _ _ _ _

/-! ## Pointwise functions read at an index -/

section Pointwise
variable {s : Shape} {φ : FTy}

/-- The hyperbolic tangent of a vector, at an index. -/
theorem tanh_apply (a : FVec Ideal s φ) (i : s.Idx) : tanh a i = Ideal.tanh (a i) := rfl
/-- The exponential of a vector, at an index. -/
theorem exp_apply (a : FVec Ideal s φ) (i : s.Idx) : exp a i = Ideal.exp (a i) := rfl

end Pointwise

/-! ## The ordinary matrix product at an entry -/

section Plain
variable {M K N : ℕ}

theorem plain_lhs_0 (j : (⟨2, ![M, N]⟩ : Shape).Idx) (k : (DotDims.plain M K N).contr.Idx) :
    ((DotDims.plain M K N).lhsIdx j k 0).val = (j 0).val := rfl
theorem plain_lhs_1 (j : (⟨2, ![M, N]⟩ : Shape).Idx) (k : (DotDims.plain M K N).contr.Idx) :
    ((DotDims.plain M K N).lhsIdx j k 1).val = (k ⟨0, Nat.one_pos⟩).val := rfl
theorem plain_rhs_0 (j : (⟨2, ![M, N]⟩ : Shape).Idx) (k : (DotDims.plain M K N).contr.Idx) :
    ((DotDims.plain M K N).rhsIdx j k 0).val = (k ⟨0, Nat.one_pos⟩).val := rfl
theorem plain_rhs_1 (j : (⟨2, ![M, N]⟩ : Shape).Idx) (k : (DotDims.plain M K N).contr.Idx) :
    ((DotDims.plain M K N).rhsIdx j k 1).val = (j 1).val := rfl

/-- The contraction's sum at entry (p, q), re-indexed by the contracted coordinate: ∑ k, l[p, k] · r[k, q]. -/
theorem sum_plain {φ₁ φ₂ : FTy} (l : FVec Ideal ⟨2, ![M, K]⟩ φ₁) (r : FVec Ideal ⟨2, ![K, N]⟩ φ₂) (p : Fin M) (q : Fin N) :
    (∑ k : (DotDims.plain M K N).contr.Idx,
        l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- An ordinary product into the zero accumulator: at entry (p, q), ∑ k, l[p, k] · r[k, q]. -/
theorem matmul_plain_apply {φ₁ φ₂ : FTy} (prec : Option ContractPrecision) (l : FVec Ideal ⟨2, ![M, K]⟩ φ₁)
    (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply, sum_plain]

end Plain

/-! ## The tile's logits -/

/-- The logit of position i of the tile: ∑ a, V a · tanh (d a + ∑ h, enc i h · W1 a h). -/
def tileLogit (x0 : Vec Ideal S1024x1024 .f32) (x3 : Vec Ideal S1024x1024 .bf16) (x2 : Vec Ideal S1x1024 .f32)
    (x4 : Vec Ideal S1x1024 .bf16) (i : Fin 1024) : EReal :=
  ∑ a : Fin 1024, x4 (ix2 (0 : Fin 1) a) * Ideal.tanh (x2 (ix2 (0 : Fin 1) a) + ∑ h : Fin 1024, x0 (ix2 i h) * x3 (ix2 a h))

/-- The masked logit: -∞ where the mask word is not zero. -/
def tileMasked (x0 : Vec Ideal S1024x1024 .f32) (x3 : Vec Ideal S1024x1024 .bf16) (x2 : Vec Ideal S1x1024 .f32)
    (x4 : Vec Ideal S1x1024 .bf16) (x1 : Vec Ideal S1x1024 .i32) (i : Fin 1024) : EReal :=
  if x1 (ix2 (0 : Fin 1) i) = 0#32 then tileLogit x0 x3 x2 x4 i else ⊥

section Logits
variable (x0 : Vec Ideal S1024x1024 .f32) (x3 : Vec Ideal S1024x1024 .bf16) (x2 : Vec Ideal S1x1024 .f32)
  (x4 : Vec Ideal S1x1024 .bf16) (x1 : Vec Ideal S1x1024 .i32)

/-- The encoder block in the product's format, at an entry: the format change is the identity. -/
theorem pay13_apply (i h : Fin 1024) : k0_pay13 (F := Ideal) x0 (ix2 i h) = x0 (ix2 i h) := by
  unfold k0_pay13
  rw [shapeCast_self]
  rfl

/-- The unmasked logits: V against the activations, the activations' pre-image the block against W1 plus d. -/
theorem pay14_apply (i : Fin 1024) :
    k0_pay14 (F := Ideal) x0 x3 x2 x4 (ix2 (0 : Fin 1) i) = tileLogit x0 x3 x2 x4 i := by
  unfold k0_pay14 tileLogit
  simp only [shapeCast_self, dotVT_eq, dotTT_eq]
  refine (Cert.LibTransposedMatmul.matmul_transposed_apply none _ _ (0 : Fin 1) i).trans ?_
  refine Finset.sum_congr rfl fun a _ => ?_
  congr 1
  rw [truncf_apply, tanh_apply, addf_apply, broadcastTo_1b_ab_apply]
  congr 2
  refine (Cert.LibTransposedMatmul.matmul_transposed_apply (φ₁ := .bf16) (φ₂ := .bf16) none _ x3 i a).trans ?_
  refine Finset.sum_congr rfl fun h _ => ?_
  rw [pay13_apply]

/-- The mask bit of position i: set where the mask word is not zero. -/
theorem pay15_apply (i : Fin 1024) :
    k0_pay15 (F := Ideal) x1 (ix2 (0 : Fin 1) i) = if x1 (ix2 (0 : Fin 1) i) = 0#32 then 0#1 else 1#1 := by
  unfold k0_pay15
  rw [shapeCast_self]
  show IntOp.cmpi .ne (x1 (ix2 (0 : Fin 1) i)) 0#32 = _
  unfold IntOp.cmpi
  by_cases h : x1 (ix2 (0 : Fin 1) i) = 0#32
  · rw [if_pos h, h]; rfl
  · rw [if_neg h]
    have : (x1 (ix2 (0 : Fin 1) i) != 0#32) = true := by simpa using h
    show BitVec.ofBool (x1 (ix2 (0 : Fin 1) i) != 0#32) = 1#1
    rw [this]; rfl

/-- The stored logits: -∞ (its own word) on the masked positions. -/
theorem pay16_apply (i : Fin 1024) :
    k0_pay16 (F := Ideal) x0 x3 x2 x4 x1 (ix2 (0 : Fin 1) i) = tileMasked x0 x3 x2 x4 x1 i := by
  unfold k0_pay16 tileMasked
  rw [select_apply, pay15_apply, pay14_apply, broadcast_apply]
  by_cases h : x1 (ix2 (0 : Fin 1) i) = 0#32
  · rw [if_pos h, if_pos h, select_zero]
  · rw [if_neg h, if_neg h, select_one]; exact ofBits_neg_inf

/-- The logits the running state reads: the named fill, which is -∞, on the masked positions. -/
theorem pay17_apply (i : Fin 1024) :
    k0_pay17 (F := Ideal) x0 x3 x2 x4 x1 (ix2 (0 : Fin 1) i) = tileMasked x0 x3 x2 x4 x1 i := by
  unfold k0_pay17 tileMasked
  rw [select_apply, pay15_apply, pay14_apply, broadcast_apply]
  by_cases h : x1 (ix2 (0 : Fin 1) i) = 0#32
  · rw [if_pos h, if_pos h, select_zero]
  · rw [if_neg h, if_neg h, select_one]; exact named_neg_big

/-- The index a lane reduction of a 1 × 1024 row reads at lane k. -/
theorem lift_row (k : Fin 1024) : reduces_S1x1024_S1.lift (ix1 (0 : Fin 1)) k = ix2 (0 : Fin 1) k :=
  funext fun a => Fin.ext (by
    match a with
    | ⟨0, _⟩ => rfl
    | ⟨1, _⟩ => rfl)

/-- The tile's maximum: the fold of max from -∞ over the tile's masked logits. -/
theorem pay18_apply :
    k0_pay18 (F := Ideal) x0 x3 x2 x4 x1 (ix1 (0 : Fin 1)) = Cert.Attn.tileMax (tileMasked x0 x3 x2 x4 x1) := by
  unfold k0_pay18 Cert.Attn.tileMax
  refine (Ideal.multiReduction_maximumf_single (k0_pay17 (F := Ideal) x0 x3 x2 x4 x1) 0xFF800000#32
    reduces_S1x1024_S1 (.inl rfl) rfl (ix1 (0 : Fin 1))).trans ?_
  have hf : (k0_pay17 (F := Ideal) x0 x3 x2 x4 x1 ∘ reduces_S1x1024_S1.lift (ix1 (0 : Fin 1)))
      = tileMasked x0 x3 x2 x4 x1 := funext fun k =>
    (congrArg (k0_pay17 (F := Ideal) x0 x3 x2 x4 x1) (lift_row k)).trans (pay17_apply x0 x3 x2 x4 x1 k)
  rw [hf, Ideal.ofBits_def, ofBits_neg_inf]
  rfl

end Logits

/-! ## One grid point's update of the running state -/

/-- The running state the three scratch buffers hold. -/
def stOf (xs0 xs1 : Vec Ideal S1x1 .f32) (xs2 : Vec Ideal S1x1024 .f32) : Cert.Attn.St :=
  ⟨xs0 (ix2 (0 : Fin 1) (0 : Fin 1)), xs1 (ix2 (0 : Fin 1) (0 : Fin 1)), fun h => xs2 (ix2 (0 : Fin 1) h)⟩

section Update
variable (v25 : FVec Ideal S1x1024 .f32) (v26 v27 : Vec Ideal S1x1 .f32) (v28 : Vec Ideal S1x1024 .f32)
  (v29 : FVec Ideal S1 .f32) (v5 : FVec Ideal S1024x1024 .bf16)

/-- The new maximum: the larger of the old one and the tile's. -/
theorem pay1_apply :
    k0_pay1 (F := Ideal) v26 v29 (ix2 (0 : Fin 1) (0 : Fin 1))
      = max (v26 (ix2 (0 : Fin 1) (0 : Fin 1))) (v29 (ix1 (0 : Fin 1))) := by
  unfold k0_pay1
  rw [maximumf_apply, shapeCast_a_1a_apply]

/-- The 1 × 1 cell broadcast along the row reads the cell everywhere. -/
theorem broadcast_cell_apply (v : FVec Ideal S1x1 .f32) (s : Fin 1024) :
    broadcastTo S1x1024 v broadcasts_S1x1_S1x1024 (ix2 (0 : Fin 1) s) = v (ix2 (0 : Fin 1) (0 : Fin 1)) :=
  broadcastTo_apply v broadcasts_S1x1_S1x1024 _ _ fun a => by
    match a with
    | ⟨0, _⟩ => rfl
    | ⟨1, _⟩ => rfl

/-- The rescaling factor of the old state: exp (m - mN). -/
theorem pay2_apply :
    k0_pay2 (F := Ideal) v26 v29 (ix2 (0 : Fin 1) (0 : Fin 1))
      = Ideal.exp (v26 (ix2 (0 : Fin 1) (0 : Fin 1))
          - max (v26 (ix2 (0 : Fin 1) (0 : Fin 1))) (v29 (ix1 (0 : Fin 1)))) := by
  unfold k0_pay2
  rw [exp_apply, subf_apply, pay1_apply]

/-- The tile's weights: exp (u s - mN). -/
theorem pay3_apply (s : Fin 1024) :
    k0_pay3 (F := Ideal) v25 v26 v29 (ix2 (0 : Fin 1) s)
      = Ideal.exp (v25 (ix2 (0 : Fin 1) s)
          - max (v26 (ix2 (0 : Fin 1) (0 : Fin 1))) (v29 (ix1 (0 : Fin 1)))) := by
  unfold k0_pay3
  rw [exp_apply, subf_apply, broadcast_cell_apply, pay1_apply]

/-- The lane sum of a 1 × 1024 row from zero. -/
theorem row_sum_apply (src : FVec Ideal S1x1024 .f32) (hφ : FKind.Formats .f32)
    (hacc : (0x00000000#32 : BitVec 32) = 0x00000000#32) :
    multiReduction (F := Ideal) .add [1] S1 src 0x00000000#32 reduces_S1x1024_S1 hφ hacc (ix1 (0 : Fin 1))
      = ∑ s : Fin 1024, src (ix2 (0 : Fin 1) s) := by
  refine (Ideal.multiReduction_add_single src 0x00000000#32 reduces_S1x1024_S1 hφ hacc (ix1 (0 : Fin 1))).trans ?_
  exact Finset.sum_congr rfl fun s _ => congrArg src (lift_row s)

/-- The new normaliser: the old one rescaled plus the tile's weights. -/
theorem pay4_apply :
    k0_pay4 (F := Ideal) v25 v26 v27 v29 (ix2 (0 : Fin 1) (0 : Fin 1))
      = Ideal.exp (v26 (ix2 (0 : Fin 1) (0 : Fin 1))
            - max (v26 (ix2 (0 : Fin 1) (0 : Fin 1))) (v29 (ix1 (0 : Fin 1)))) * v27 (ix2 (0 : Fin 1) (0 : Fin 1))
        + ∑ s : Fin 1024, Ideal.exp (v25 (ix2 (0 : Fin 1) s)
            - max (v26 (ix2 (0 : Fin 1) (0 : Fin 1))) (v29 (ix1 (0 : Fin 1)))) := by
  unfold k0_pay4
  rw [shapeCast_self, addf_apply, mulf_apply, pay2_apply, shapeCast_a_1a_apply, row_sum_apply]
  congr 1
  exact Finset.sum_congr rfl fun s _ => pay3_apply v25 v26 v29 s

/-- The new weighted sum: the old one rescaled plus the tile's weights against the tile's rows. -/
theorem pay5_apply (h : Fin 1024) :
    k0_pay5 (F := Ideal) v5 v25 v26 v28 v29 (ix2 (0 : Fin 1) h)
      = Ideal.exp (v26 (ix2 (0 : Fin 1) (0 : Fin 1))
            - max (v26 (ix2 (0 : Fin 1) (0 : Fin 1))) (v29 (ix1 (0 : Fin 1)))) * v28 (ix2 (0 : Fin 1) h)
        + ∑ s : Fin 1024, Ideal.exp (v25 (ix2 (0 : Fin 1) s)
            - max (v26 (ix2 (0 : Fin 1) (0 : Fin 1))) (v29 (ix1 (0 : Fin 1)))) * v5 (ix2 s h) := by
  unfold k0_pay5
  simp only [shapeCast_self, dotPlain_eq]
  rw [addf_apply, mulf_apply, broadcast_cell_apply, pay2_apply]
  congr 1
  refine (matmul_plain_apply (φ₁ := .bf16) (φ₂ := .bf16) none _ v5 (0 : Fin 1) h).trans ?_
  refine Finset.sum_congr rfl fun s _ => ?_
  rw [truncf_apply, pay3_apply]

/-- The stored maximum. -/
theorem pay6_apply :
    k0_pay6 (F := Ideal) v26 v29 (ix2 (0 : Fin 1) (0 : Fin 1))
      = max (v26 (ix2 (0 : Fin 1) (0 : Fin 1))) (v29 (ix1 (0 : Fin 1))) := by
  unfold k0_pay6
  rw [shapeCast_self, pay1_apply]

end Update

section Step
variable (x0 : Vec Ideal S1024x1024 .f32) (x3 : Vec Ideal S1024x1024 .bf16) (x2 : Vec Ideal S1x1024 .f32)
  (x4 : Vec Ideal S1x1024 .bf16) (x1 : Vec Ideal S1x1024 .i32)
  (xs0 xs1 : Vec Ideal S1x1 .f32) (xs2 : Vec Ideal S1x1024 .f32)

/-- The maximum a grid point leaves is the specification's. -/
theorem step_m :
    k0_pay6 (F := Ideal) xs0 (k0_pay18 (F := Ideal) x0 x3 x2 x4 x1) (ix2 (0 : Fin 1) (0 : Fin 1))
      = ((stOf xs0 xs1 xs2).step (tileMasked x0 x3 x2 x4 x1) (fun i h => x0 (ix2 i h))).m := by
  rw [pay6_apply, pay18_apply]
  rfl

/-- The normaliser a grid point leaves is the specification's. -/
theorem step_l :
    k0_pay4 (F := Ideal) (k0_pay17 (F := Ideal) x0 x3 x2 x4 x1) xs0 xs1 (k0_pay18 (F := Ideal) x0 x3 x2 x4 x1)
        (ix2 (0 : Fin 1) (0 : Fin 1))
      = ((stOf xs0 xs1 xs2).step (tileMasked x0 x3 x2 x4 x1) (fun i h => x0 (ix2 i h))).l := by
  rw [pay4_apply, pay18_apply]
  simp only [pay17_apply]
  rfl

/-- The weighted sum a grid point leaves is the specification's. -/
theorem step_acc (h : Fin 1024) :
    k0_pay5 (F := Ideal) (k0_pay13 (F := Ideal) x0) (k0_pay17 (F := Ideal) x0 x3 x2 x4 x1) xs0 xs2
        (k0_pay18 (F := Ideal) x0 x3 x2 x4 x1) (ix2 (0 : Fin 1) h)
      = ((stOf xs0 xs1 xs2).step (tileMasked x0 x3 x2 x4 x1) (fun i h => x0 (ix2 i h))).acc h := by
  rw [pay5_apply, pay18_apply]
  simp only [pay17_apply, pay13_apply]
  rfl

end Step

end Cert.KernelIdeal.PayIdx

end
-- ==== Proof.State.lean ====
/-
  The running state the kernel carries from grid point to grid point is the specification's.

  At grid point t the body reads the tile's encoder rows and mask and the whole of d, W1 and V, forms the tile's masked
  logits, and replaces the three running values (maximum, normaliser, weighted sum) by one step of the online softmax
  from what the point before left — or, on a core's first tile, from the reset values (-∞, 0, 0).
  So, by induction over the sixteen points, the running values after point n are the state stAt of the specification,
  over the masked logits and encoder rows read from the arrays the region finds.
-/
import proofs.«423131_j63548336112291_3_alg».proof.Proof.Blocks
import proofs.«423131_j63548336112291_3_alg».proof.Proof.Pieces
import proofs.«423131_j63548336112291_3_alg».proof.Proof.PayIdx

set_option maxRecDepth 16384

noncomputable section

namespace Cert.KernelIdeal.State

open Idealize.ShloMosaic Idealize.ShloMosaic.TcCoe Idealize.SL.Sem Idealize.ShloMosaic.ValueIdx
open Cert.KernelIdeal Cert.KernelIdeal.Gen Cert.KernelIdeal.Blocks Cert.KernelIdeal.PayIdx
open scoped BigOperators

variable (m : (ℓ : Loc nD τ sig) → Buf (Elt Ideal) ℓ)

/-- The tile's masked logits are the sequence's masked logits at the tile's positions. -/
theorem tile_u (c : Dev nD) (t : Fin cfg0.N) :
    tileMasked (encBlk m c t) (w1Blk m c t) (dBlk m c t) (vBlk m c t) (maskBlk m c t) = fun i => uV m c (Cert.Attn.tileIx t.val i) := by
  funext i
  unfold tileMasked tileLogit uV
  simp only [enc_block, mask_block, d_block, w1_block, v_block]

/-- The tile's encoder rows are the matrix's rows at the tile's positions. -/
theorem tile_e (c : Dev nD) (t : Fin cfg0.N) :
    (fun (i h : Fin 1024) => encBlk m c t (ix2 i h)) = fun i h => eV m c (Cert.Attn.tileIx t.val i) h := by
  funext i h
  exact enc_block m c t i h

/-- One grid point's update: from running values that are the state prev, the three values the body stores are prev's
    step over the tile. -/
theorem update_eq (c : Dev nD) (t : Fin cfg0.N) (xs0 xs1 : Vec Ideal S1x1 .f32) (xs2 : Vec Ideal S1x1024 .f32)
    (prev : Cert.Attn.St) (hprev : stOf xs0 xs1 xs2 = prev) :
    stOf (k0_pay6 (F := Ideal) xs0 (k0_pay18 (F := Ideal) (encBlk m c t) (w1Blk m c t) (dBlk m c t) (vBlk m c t) (maskBlk m c t)))
         (k0_pay4 (F := Ideal) (k0_pay17 (F := Ideal) (encBlk m c t) (w1Blk m c t) (dBlk m c t) (vBlk m c t) (maskBlk m c t)) xs0 xs1 (k0_pay18 (F := Ideal) (encBlk m c t) (w1Blk m c t) (dBlk m c t) (vBlk m c t) (maskBlk m c t)))
         (k0_pay5 (F := Ideal) (k0_pay13 (F := Ideal) (encBlk m c t)) (k0_pay17 (F := Ideal) (encBlk m c t) (w1Blk m c t) (dBlk m c t) (vBlk m c t) (maskBlk m c t)) xs0 xs2 (k0_pay18 (F := Ideal) (encBlk m c t) (w1Blk m c t) (dBlk m c t) (vBlk m c t) (maskBlk m c t)))
      = prev.step (fun i => uV m c (Cert.Attn.tileIx t.val i)) (fun i h => eV m c (Cert.Attn.tileIx t.val i) h) := by
  subst hprev
  rw [← tile_u m c t, ← tile_e m c t]
  have hm := step_m (encBlk m c t) (w1Blk m c t) (dBlk m c t) (vBlk m c t) (maskBlk m c t) xs0 xs1 xs2
  have hl := step_l (encBlk m c t) (w1Blk m c t) (dBlk m c t) (vBlk m c t) (maskBlk m c t) xs0 xs1 xs2
  have ha := fun h => step_acc (encBlk m c t) (w1Blk m c t) (dBlk m c t) (vBlk m c t) (maskBlk m c t) xs0 xs1 xs2 h
  show Cert.Attn.St.mk _ _ _ = _
  rw [hm, hl]
  simp only [ha]

/-- The reset values are the specification's initial state. -/
theorem init_eq : stOf (k0_pay10 (F := Ideal)) (k0_pay11 (F := Ideal)) (k0_pay12 (F := Ideal)) = Cert.Attn.St.init := by
  unfold stOf Cert.Attn.St.init
  simp only [pay10_apply, pay11_apply, pay12_apply]

/-- The running values after grid point n, as a state. -/
def scratchSt (c : Dev nD) (n : ℕ) (hn : n < cfg0.N) : Cert.Attn.St :=
  stOf (outsAt0 m c n hn).2.2.2.2.1 (outsAt0 m c n hn).2.2.2.2.2.1 (outsAt0 m c n hn).2.2.2.2.2.2

/-- They are the specification's state after n + 1 tiles of the walk, by induction on the point. -/
theorem scratch_eq (c : Dev nD) : ∀ (n : ℕ) (hn : n < cfg0.N), scratchSt m c n hn = Cert.Attn.stAt (uV m c) (eV m c) n
  | 0, hn => by
    unfold scratchSt
    rw [outsAt0_A m c ⟨0, hn⟩ rfl (by dsimp only; omega)]
    dsimp only
    rw [Pieces.first_max, Pieces.first_norm, Pieces.first_acc]
    exact update_eq m c ⟨0, hn⟩ _ _ _ _ init_eq
  | n + 1, hn => by
    have hN : cfg0.N = 16 := N_0
    have ih := scratch_eq c n (Nat.lt_of_succ_lt hn)
    unfold scratchSt at ih ⊢
    rw [Cert.Attn.stAt]
    by_cases h0 : (n + 1) % 8 = 0
    · have h1 : ¬(n + 1) % 8 = 7 := by omega
      rw [if_pos h0, outsAt0_A m c ⟨n + 1, hn⟩ h0 h1]
      dsimp only
      rw [Pieces.first_max, Pieces.first_norm, Pieces.first_acc]
      exact update_eq m c ⟨n + 1, hn⟩ _ _ _ _ init_eq
    · rw [if_neg h0]
      by_cases h1 : (n + 1) % 8 = 7
      · rw [outsAt0_C m c ⟨n + 1, hn⟩ h0 h1]
        dsimp only
        rw [Pieces.last_max, Pieces.last_norm, Pieces.last_acc]
        exact update_eq m c ⟨n + 1, hn⟩ _ _ _ _ ih
      · rw [outsAt0_B m c ⟨n + 1, hn⟩ h0 h1]
        dsimp only
        rw [Pieces.middle_max, Pieces.middle_norm, Pieces.middle_acc]
        exact update_eq m c ⟨n + 1, hn⟩ _ _ _ _ ih

end Cert.KernelIdeal.State

end
-- ==== Proof.Arrays.lean ====
/-
  What the four output arrays of the kernel hold after the region.

  Every grid point writes its tile of masked logits back, so the logits row ends as the masked logit of every position.
  The three per-core results are written back only after a core's last tile (points 7 and 15): row c of each ends as the
  running maximum, normaliser and weighted sum after point 8c + 7, which are the specification's state there.
-/
import proofs.«423131_j63548336112291_3_alg».proof.Proof.State

set_option maxRecDepth 16384

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.PayIdx Cert.KernelIdeal.State
open scoped BigOperators

variable (m : (ℓ : Loc nD τ sig) → Buf (Elt Ideal) ℓ)

/-- An axis of extent one has one coordinate. -/
theorem fin_one_eq (x y : Fin 1) : x = y := Subsingleton.elim x y

/-! ## The logits row -/

/-- Whatever the case, the logits block a grid point stores is the masked logits of its tile. -/
theorem logits_eq (c : Dev nD) (t : Fin cfg0.N) :
    (outsAt0 m c t.val t.isLt).1 = k0_pay16 (F := Ideal) (encBlk m c t) (w1Blk m c t) (dBlk m c t) (vBlk m c t) (maskBlk m c t) := by
  by_cases h0 : t.val % 8 = 0
  · have h1 : ¬t.val % 8 = 7 := by omega
    rw [outsAt0_A m c t h0 h1]
    dsimp only
    rw [Pieces.first_logits]
  · by_cases h1 : t.val % 8 = 7
    · rw [outsAt0_C m c t h0 h1]
      dsimp only
      rw [Pieces.last_logits]
    · rw [outsAt0_B m c t h0 h1]
      dsimp only
      rw [Pieces.middle_logits]

/-- The logits row the region leaves: the masked logit of every position. -/
abbrev uRow (c : Dev nD) : Vec Ideal S1x16384 .f32 := fun j => uV m c ⟨(j 1).val, (j 1).isLt⟩

/-- What grid point t writes back is its block of that row. -/
theorem flushed_logits (c : Dev nD) (t : Fin cfg0.N) :
    (dats m 0 c).flushed 5 t = ((cfg0.win 5).blk t).view.read (Elt Ideal) (uRow m c) := by
  obtain ⟨-, -, -, -, -, -, -, -, -, -, e0, e1, -⟩ := idx_facts t
  have hN : cfg0.N = 16 := N_0
  have ht := t.isLt
  show (cfg0.win 5).cut (grid0.coords t) ((dats m 0 c).after 5 t) = _
  rw [after0_5, logits_eq]
  funext j
  obtain ⟨i, rfl⟩ : ∃ i : Fin 1024, j = ix2 (0 : Fin 1) i :=
    ⟨j 1, (eq_ix2 j).trans (by congr 1; exact fin_one_eq _ _)⟩
  rw [View.read_apply]
  show k0_pay16 (F := Ideal) (encBlk m c t) (w1Blk m c t) (dBlk m c t) (vBlk m c t) (maskBlk m c t) (ix2 (0 : Fin 1) i) = uRow m c _
  rw [pay16_apply, congrFun (tile_u m c t) i]
  show uV m c _ = uV m c _
  congr 1
  apply Fin.ext
  show (1024 * t.val + i.val) % 16384 = win0_5.index t 1 * 1024 + 1 * i.val
  rw [e1]; omega

/-- An index of the row is in grid point t's block iff each coordinate is in the block's range. -/
theorem mem_logits_blk (t : Fin cfg0.N) (i : S1x16384.Idx) :
    i ∈ ((cfg0.win 5).blk t).view.set ↔ ∀ a : Fin 2, win0_5.index t a * S1x1024.size a ≤ (i a).val ∧ (i a).val < win0_5.index t a * S1x1024.size a + S1x1024.size a := by
  show i ∈ ((View.whole main_v6_0).slice (win0_5.rect t)).set ↔ _
  rw [View.set_slice_whole, Rect.mem_set_unit]
  exact Iff.rfl

/-- The logits row after the region. -/
theorem final_logits (c : Dev nD) : (dats m 0 c).arrAt 5 cfg0.N = uRow m c := by
  have hN : cfg0.N = 16 := N_0
  refine (dats m 0 c).arrAt_eq_of_cover 5 (uRow m c) (fun t _ => flushed_logits m c t) fun i => ?_
  have hi0 : (i 0).val < 1 := (i 0).isLt
  have hi1 : (i 1).val < 16384 := (i 1).isLt
  refine ⟨⟨(i 1).val / 1024, by rw [hN]; omega⟩, flush0_5 _, ?_⟩
  rw [mem_logits_blk]
  obtain ⟨-, -, -, -, -, -, -, -, -, -, e0, e1, -⟩ := idx_facts ⟨(i 1).val / 1024, by rw [hN]; omega⟩
  intro a
  match a with
  | ⟨0, _⟩ => show win0_5.index _ 0 * 1 ≤ (i 0).val ∧ (i 0).val < win0_5.index _ 0 * 1 + 1; rw [e0]; omega
  | ⟨1, _⟩ => show win0_5.index _ 1 * 1024 ≤ (i 1).val ∧ (i 1).val < win0_5.index _ 1 * 1024 + 1024; rw [e1]; dsimp only; omega

/-! ## The per-core results -/

/-- On a core's last tile the three results stored are the three running values just stored. -/
theorem last_results (c : Dev nD) (t : Fin cfg0.N) (h1 : t.val % 8 = 7) :
    (outsAt0 m c t.val t.isLt).2.1 = k0_pay7 (F := Ideal) (outsAt0 m c t.val t.isLt).2.2.2.2.1
    ∧ (outsAt0 m c t.val t.isLt).2.2.1 = k0_pay8 (F := Ideal) (outsAt0 m c t.val t.isLt).2.2.2.2.2.1
    ∧ (outsAt0 m c t.val t.isLt).2.2.2.1 = k0_pay9 (F := Ideal) (outsAt0 m c t.val t.isLt).2.2.2.2.2.2 := by
  have h0 : ¬t.val % 8 = 0 := by omega
  rw [outsAt0_C m c t h0 h1]
  dsimp only
  rw [Pieces.last_out_max, Pieces.last_out_norm, Pieces.last_out_acc, Pieces.last_max, Pieces.last_norm, Pieces.last_acc]
  exact ⟨rfl, rfl, rfl⟩

/-- Core k's final state: the specification's state after point 8k + 7. -/
def coreSt (c : Dev nD) (k : ℕ) : Cert.Attn.St := Cert.Attn.stAt (uV m c) (eV m c) (8 * k + 7)

/-- The three per-core arrays the region leaves. -/
abbrev maxArr (c : Dev nD) : Vec Ideal S2x1x1 .f32 := fun j => (coreSt m c (j 0).val).m
abbrev normArr (c : Dev nD) : Vec Ideal S2x1x1 .f32 := fun j => (coreSt m c (j 0).val).l
abbrev accArr (c : Dev nD) : Vec Ideal S2x1x1024 .f32 := fun j => (coreSt m c (j 0).val).acc ⟨(j 2).val, (j 2).isLt⟩

/-- What a core's last tile writes back into the max array is its block of maxArr. -/
theorem flushed_max (c : Dev nD) (t : Fin cfg0.N) (hf : (cfg0.win 6).flush t = true) :
    (dats m 0 c).flushed 6 t = ((cfg0.win 6).blk t).view.read (Elt Ideal) (maxArr m c) := by
  have h1 : t.val % 8 = 7 := (flush0_6 t).mp hf
  have hN : cfg0.N = 16 := N_0
  have ht := t.isLt
  obtain ⟨-, -, -, -, -, -, -, -, -, -, -, -, a0, a1, a2, b0, b1, b2, d0, d1, d2⟩ := idx_facts t
  show (cfg0.win 6).cut (grid0.coords t) ((dats m 0 c).after 6 t) = _
  rw [after0_6, (last_results m c t h1).1]
  funext j
  obtain rfl : j = ix3 (0 : Fin 1) (0 : Fin 1) (0 : Fin 1) :=
    (eq_ix3 j).trans (by congr 1 <;> exact fin_one_eq _ _)
  rw [View.read_apply]
  show k0_pay7 (F := Ideal) _ (ix3 (0 : Fin 1) (0 : Fin 1) (0 : Fin 1)) = maxArr m c _
  rw [pay7_apply]
  show (scratchSt m c t.val t.isLt).m = (Cert.Attn.stAt (uV m c) (eV m c) (8 * (win0_6.index t 0 * 1 + 1 * 0) + 7)).m
  rw [scratch_eq m c t.val t.isLt, a0]
  congr 2
  omega

/-- What a core's last tile writes back into the norm array is its block of normArr. -/
theorem flushed_norm (c : Dev nD) (t : Fin cfg0.N) (hf : (cfg0.win 7).flush t = true) :
    (dats m 0 c).flushed 7 t = ((cfg0.win 7).blk t).view.read (Elt Ideal) (normArr m c) := by
  have h1 : t.val % 8 = 7 := (flush0_7 t).mp hf
  have hN : cfg0.N = 16 := N_0
  have ht := t.isLt
  obtain ⟨-, -, -, -, -, -, -, -, -, -, -, -, a0, a1, a2, b0, b1, b2, d0, d1, d2⟩ := idx_facts t
  show (cfg0.win 7).cut (grid0.coords t) ((dats m 0 c).after 7 t) = _
  rw [after0_7, (last_results m c t h1).2.1]
  funext j
  obtain rfl : j = ix3 (0 : Fin 1) (0 : Fin 1) (0 : Fin 1) :=
    (eq_ix3 j).trans (by congr 1 <;> exact fin_one_eq _ _)
  rw [View.read_apply]
  show k0_pay8 (F := Ideal) _ (ix3 (0 : Fin 1) (0 : Fin 1) (0 : Fin 1)) = normArr m c _
  rw [pay8_apply]
  show (scratchSt m c t.val t.isLt).l = (Cert.Attn.stAt (uV m c) (eV m c) (8 * (win0_7.index t 0 * 1 + 1 * 0) + 7)).l
  rw [scratch_eq m c t.val t.isLt, b0]
  congr 2
  omega

/-- What a core's last tile writes back into the acc array is its block of accArr. -/
theorem flushed_acc (c : Dev nD) (t : Fin cfg0.N) (hf : (cfg0.win 8).flush t = true) :
    (dats m 0 c).flushed 8 t = ((cfg0.win 8).blk t).view.read (Elt Ideal) (accArr m c) := by
  have h1 : t.val % 8 = 7 := (flush0_8 t).mp hf
  have hN : cfg0.N = 16 := N_0
  have ht := t.isLt
  obtain ⟨-, -, -, -, -, -, -, -, -, -, -, -, a0, a1, a2, b0, b1, b2, d0, d1, d2⟩ := idx_facts t
  show (cfg0.win 8).cut (grid0.coords t) ((dats m 0 c).after 8 t) = _
  rw [after0_8, (last_results m c t h1).2.2]
  funext j
  obtain ⟨h, rfl⟩ : ∃ h : Fin 1024, j = ix3 (0 : Fin 1) (0 : Fin 1) h :=
    ⟨j 2, (eq_ix3 j).trans (by congr 1 <;> exact fin_one_eq _ _)⟩
  rw [View.read_apply]
  show k0_pay9 (F := Ideal) _ (ix3 (0 : Fin 1) (0 : Fin 1) h) = accArr m c _
  rw [pay9_apply]
  show (scratchSt m c t.val t.isLt).acc h = (Cert.Attn.stAt (uV m c) (eV m c) (8 * (win0_8.index t 0 * 1 + 1 * 0) + 7)).acc ⟨win0_8.index t 2 * 1024 + 1 * h.val, _⟩
  rw [scratch_eq m c t.val t.isLt]
  have e1 : 8 * (win0_8.index t 0 * 1 + 1 * 0) + 7 = t.val := by rw [d0]; omega
  have e2 : (⟨win0_8.index t 2 * 1024 + 1 * h.val, by rw [d2]; have := h.isLt; omega⟩ : Fin 1024) = h := Fin.ext (by show win0_8.index t 2 * 1024 + 1 * h.val = h.val; rw [d2]; omega)
  rw [e1]
  exact congrArg _ e2.symm

/-- An index of the max array is in grid point t's block iff each coordinate is in the block's range. -/
theorem mem_max_blk (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v6_1).slice (win0_6.rect t)).set ↔ _
  rw [View.set_slice_whole, Rect.mem_set_unit]
  exact Iff.rfl

/-- The max array after the region: row k is core k's final value. -/
theorem final_max (c : Dev nD) : (dats m 0 c).arrAt 6 cfg0.N = maxArr m c := by
  have hN : cfg0.N = 16 := N_0
  refine (dats m 0 c).arrAt_eq_of_cover 6 (maxArr m c) (flushed_max m c) fun i => ?_
  have hi0 : (i 0).val < 2 := (i 0).isLt
  have hi1 : (i 1).val < 1 := (i 1).isLt
  have hi2 : (i 2).val < 1 := (i 2).isLt
  obtain ⟨t, ht⟩ : ∃ t : Fin cfg0.N, t.val = 8 * (i 0).val + 7 := ⟨⟨8 * (i 0).val + 7, by rw [hN]; omega⟩, rfl⟩
  refine ⟨t, (flush0_6 t).mpr (by omega), ?_⟩
  rw [mem_max_blk]
  obtain ⟨-, -, -, -, -, -, -, -, -, -, -, -, a0, a1, a2, b0, b1, b2, d0, d1, d2⟩ := idx_facts t
  intro a
  match a with
  | ⟨0, _⟩ => show win0_6.index t 0 * 1 ≤ (i 0).val ∧ (i 0).val < win0_6.index t 0 * 1 + 1; rw [a0]; omega
  | ⟨1, _⟩ => show win0_6.index t 1 * 1 ≤ (i 1).val ∧ (i 1).val < win0_6.index t 1 * 1 + 1; rw [a1]; omega
  | ⟨2, _⟩ => show win0_6.index t 2 * 1 ≤ (i 2).val ∧ (i 2).val < win0_6.index t 2 * 1 + 1; rw [a2]; omega

/-- An index of the norm array is in grid point t's block iff each coordinate is in the block's range. -/
theorem mem_norm_blk (t : Fin cfg0.N) (i : S2x1x1.Idx) :
    i ∈ ((cfg0.win 7).blk t).view.set ↔ ∀ a : Fin 3, win0_7.index t a * S1x1x1.size a ≤ (i a).val ∧ (i a).val < win0_7.index t a * S1x1x1.size a + S1x1x1.size a := by
  show i ∈ ((View.whole main_v6_2).slice (win0_7.rect t)).set ↔ _
  rw [View.set_slice_whole, Rect.mem_set_unit]
  exact Iff.rfl

/-- The norm array after the region: row k is core k's final value. -/
theorem final_norm (c : Dev nD) : (dats m 0 c).arrAt 7 cfg0.N = normArr m c := by
  have hN : cfg0.N = 16 := N_0
  refine (dats m 0 c).arrAt_eq_of_cover 7 (normArr m c) (flushed_norm m c) fun i => ?_
  have hi0 : (i 0).val < 2 := (i 0).isLt
  have hi1 : (i 1).val < 1 := (i 1).isLt
  have hi2 : (i 2).val < 1 := (i 2).isLt
  obtain ⟨t, ht⟩ : ∃ t : Fin cfg0.N, t.val = 8 * (i 0).val + 7 := ⟨⟨8 * (i 0).val + 7, by rw [hN]; omega⟩, rfl⟩
  refine ⟨t, (flush0_7 t).mpr (by omega), ?_⟩
  rw [mem_norm_blk]
  obtain ⟨-, -, -, -, -, -, -, -, -, -, -, -, a0, a1, a2, b0, b1, b2, d0, d1, d2⟩ := idx_facts t
  intro a
  match a with
  | ⟨0, _⟩ => show win0_7.index t 0 * 1 ≤ (i 0).val ∧ (i 0).val < win0_7.index t 0 * 1 + 1; rw [b0]; omega
  | ⟨1, _⟩ => show win0_7.index t 1 * 1 ≤ (i 1).val ∧ (i 1).val < win0_7.index t 1 * 1 + 1; rw [b1]; omega
  | ⟨2, _⟩ => show win0_7.index t 2 * 1 ≤ (i 2).val ∧ (i 2).val < win0_7.index t 2 * 1 + 1; rw [b2]; omega

/-- An index of the acc array is in grid point t's block iff each coordinate is in the block's range. -/
theorem mem_acc_blk (t : Fin cfg0.N) (i : S2x1x1024.Idx) :
    i ∈ ((cfg0.win 8).blk t).view.set ↔ ∀ a : Fin 3, win0_8.index t a * S1x1x1024.size a ≤ (i a).val ∧ (i a).val < win0_8.index t a * S1x1x1024.size a + S1x1x1024.size a := by
  show i ∈ ((View.whole main_v6_3).slice (win0_8.rect t)).set ↔ _
  rw [View.set_slice_whole, Rect.mem_set_unit]
  exact Iff.rfl

/-- The acc array after the region: row k is core k's final value. -/
theorem final_acc (c : Dev nD) : (dats m 0 c).arrAt 8 cfg0.N = accArr m c := by
  have hN : cfg0.N = 16 := N_0
  refine (dats m 0 c).arrAt_eq_of_cover 8 (accArr m c) (flushed_acc m c) fun i => ?_
  have hi0 : (i 0).val < 2 := (i 0).isLt
  have hi1 : (i 1).val < 1 := (i 1).isLt
  have hi2 : (i 2).val < 1024 := (i 2).isLt
  obtain ⟨t, ht⟩ : ∃ t : Fin cfg0.N, t.val = 8 * (i 0).val + 7 := ⟨⟨8 * (i 0).val + 7, by rw [hN]; omega⟩, rfl⟩
  refine ⟨t, (flush0_8 t).mpr (by omega), ?_⟩
  rw [mem_acc_blk]
  obtain ⟨-, -, -, -, -, -, -, -, -, -, -, -, a0, a1, a2, b0, b1, b2, d0, d1, d2⟩ := idx_facts t
  intro a
  match a with
  | ⟨0, _⟩ => show win0_8.index t 0 * 1 ≤ (i 0).val ∧ (i 0).val < win0_8.index t 0 * 1 + 1; rw [d0]; omega
  | ⟨1, _⟩ => show win0_8.index t 1 * 1 ≤ (i 1).val ∧ (i 1).val < win0_8.index t 1 * 1 + 1; rw [d1]; omega
  | ⟨2, _⟩ => show win0_8.index t 2 * 1024 ≤ (i 2).val ∧ (i 2).val < win0_8.index t 2 * 1024 + 1024; rw [d2]; omega

/-- Row k of the three per-core arrays, put together again, is core k's final state. -/
theorem core_state (c : Dev nD) (k : Fin 2) :
    (⟨maxArr m c (ix3 k (0 : Fin 1) (0 : Fin 1)), normArr m c (ix3 k (0 : Fin 1) (0 : Fin 1)),
        fun h => accArr m c (ix3 k (0 : Fin 1) h)⟩ : Cert.Attn.St) = coreSt m c k.val := by
  show (⟨(coreSt m c k.val).m, (coreSt m c k.val).l, fun h => (coreSt m c k.val).acc ⟨h.val, h.isLt⟩⟩ : Cert.Attn.St) = _
  generalize coreSt m c k.val = s
  cases s
  rfl

/-- The first core's final state is the state after point 7, the second's after point 15. -/
theorem coreSt_zero (c : Dev nD) : coreSt m c (0 : Fin 2).val = Cert.Attn.stAt (uV m c) (eV m c) 7 :=
  congrArg (Cert.Attn.stAt (uV m c) (eV m c)) (by decide : 8 * (0 : Fin 2).val + 7 = 7)
theorem coreSt_one (c : Dev nD) : coreSt m c (1 : Fin 2).val = Cert.Attn.stAt (uV m c) (eV m c) 15 :=
  congrArg (Cert.Attn.stAt (uV m c) (eV m c)) (by decide : 8 * (1 : Fin 2).val + 7 = 15)

end Cert.KernelIdeal.Arrays

end
-- ==== Proof.SpecLogit.lean ====
/-
  The attention logits as functions of the input arrays, over the extended reals.

  enc is the 16384 × 1 × 1024 encoder output, dec the 1 × 1024 decoder state, W2 and W1 the 1024 × 1024 weight matrices
  (stored output-major: row a is the weights of output a) and V the 1 × 1024 scoring vector.
  d a = ∑ h, dec h · W2 a h; the pre-activation of position s and unit a is d a + ∑ h, enc s h · W1 a h;
  the logit of position s is ∑ a, V a · tanh (pre-activation); a masked position's logit is -∞.
-/
import Idealize.ShloMosaic.PureOps.Ideal
import Idealize.ShloMosaic.Lib.ValueIdx

noncomputable section

namespace Cert.Attn

open Idealize.ShloMosaic Idealize.ShloMosaic.ValueIdx
open scoped BigOperators

/-- Row s of the encoder output, with the unit middle axis dropped. -/
def encAt (enc : (⟨3, ![16384, 1, 1024]⟩ : Shape).Idx → EReal) (s : Fin 16384) (h : Fin 1024) : EReal :=
  enc (ix3 s (0 : Fin 1) h)

/-- The decoder's projection d = dec · W2ᵀ. -/
def dvec (dec : (⟨2, ![1, 1024]⟩ : Shape).Idx → EReal) (W2 : (⟨2, ![1024, 1024]⟩ : Shape).Idx → EReal) (a : Fin 1024) : EReal :=
  ∑ h : Fin 1024, dec (ix2 (0 : Fin 1) h) * W2 (ix2 a h)

/-- The activation of position s, unit a: tanh (d a + (enc · W1ᵀ) s a). -/
def act (enc : (⟨3, ![16384, 1, 1024]⟩ : Shape).Idx → EReal) (dec : (⟨2, ![1, 1024]⟩ : Shape).Idx → EReal)
    (W2 W1 : (⟨2, ![1024, 1024]⟩ : Shape).Idx → EReal) (s : Fin 16384) (a : Fin 1024) : EReal :=
  Ideal.tanh (dvec dec W2 a + ∑ h : Fin 1024, encAt enc s h * W1 (ix2 a h))

/-- The logit of position s before masking: ∑ a, V a · act s a. -/
def logit (enc : (⟨3, ![16384, 1, 1024]⟩ : Shape).Idx → EReal) (dec : (⟨2, ![1, 1024]⟩ : Shape).Idx → EReal)
    (W2 W1 : (⟨2, ![1024, 1024]⟩ : Shape).Idx → EReal) (V : (⟨2, ![1, 1024]⟩ : Shape).Idx → EReal) (s : Fin 16384) : EReal :=
  ∑ a : Fin 1024, V (ix2 (0 : Fin 1) a) * act enc dec W2 W1 s a

/-- The masked logit: -∞ where the mask bit is set. -/
def maskedLogit (enc : (⟨3, ![16384, 1, 1024]⟩ : Shape).Idx → EReal) (dec : (⟨2, ![1, 1024]⟩ : Shape).Idx → EReal)
    (msk : (⟨2, ![16384, 1]⟩ : Shape).Idx → BitVec 1)
    (W2 W1 : (⟨2, ![1024, 1024]⟩ : Shape).Idx → EReal) (V : (⟨2, ![1, 1024]⟩ : Shape).Idx → EReal) (s : Fin 16384) : EReal :=
  if msk (ix2 s (0 : Fin 1)) = 1#1 then ⊥ else logit enc dec W2 W1 V s

end Cert.Attn

end
-- ==== Proof.HostSides.lean ====
/-
  The host side of the kernel's program, read index by index over the extended reals.

  Before the region: the encoder output with its unit middle axis dropped, the mask transposed and widened to a word,
  the decoder's projection d = dec · W2ᵀ, and the two weight arrays whose change of format is the identity here.
  After the region: the two cores' running states merged — the common maximum from -∞, each core's weight
  exp (m_c - M), the two weighted sums from 0 and their quotient — and the logits' row turned into a column.
-/
import proofs.«423131_j63548336112291_3_alg».proof.Proof.Gen.KernelIdeal.Frame.Runs
import proofs.«423131_j63548336112291_3_alg».proof.Proof.Spec
import proofs.«423131_j63548336112291_3_alg».proof.Proof.SpecLogit
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostSides

open Idealize.ShloMosaic Idealize.ShloMosaic.ValueIdx Idealize.ShloMosaic.TcCoe
open Idealize.SL.Sem
open scoped BigOperators

/-! ## Before the region -/

/-- The encoder output as the region finds it: row s, column h of the 16384 × 1024 array is entry (s, 0, h) of the input. -/
theorem V_v0 (m : (ℓ : Loc nD τ sig) → Buf (Elt Ideal) ℓ) (c : Dev nD) (s : Fin 16384) (h : Fin 1024) :
    Gen.V m c main_v0 (ix2 s h) = Cert.Attn.encAt (m ((c : Thread nD τ).loc main_arg0)) s h := by
  have e : (Gen.V m c main_v0 : S16384x1024.Idx → EReal)
      = shapeCast S16384x1024 (m ((c : Thread nD τ).loc main_arg0)) Gen.shapeCasts_S16384x1x1024_S16384x1024 := by
    show StableHlo.after Gen.hostOps0 (fun b => m (c, b)) (Proc.devRef .tc main_v0) = _
    after_results; rfl
  rw [e]
  unfold Cert.Attn.encAt
  refine shapeCast_apply _ _ _ _ ?_
  show (S16384x1x1024.rowMajor (ix3 s (0 : Fin 1) h)).val = (S16384x1024.rowMajor (ix2 s h)).val
  rw [Shape.rowMajor_val_three, Shape.rowMajor_val_two]
  show (s.val * 1 + 0) * 1024 + h.val = s.val * 1024 + h.val
  omega

/-- A one-bit word widened to 32 bits is zero exactly when the bit is clear. -/
theorem widen_eq_zero_iff (b : BitVec 1) : b.setWidth 32 = 0#32 ↔ b ≠ 1#1 := by
  rcases BitVec.eq_zero_or_eq_one b with hb | hb <;> subst hb <;> decide

/-- The mask as the region finds it: transposed to a row and widened to a 32-bit word, the word at position s is zero
    exactly when the mask bit of position s is clear. -/
theorem V_v5 (m : (ℓ : Loc nD τ sig) → Buf (Elt Ideal) ℓ) (c : Dev nD) (s : Fin 16384) :
    Gen.V m c main_v5 (ix2 (0 : Fin 1) s) = 0#32 ↔ m ((c : Thread nD τ).loc main_arg2) (ix2 s (0 : Fin 1)) ≠ 1#1 := by
  have e : (Gen.V m c main_v5 : S1x16384.Idx → BitVec 32)
      = extui (s := S1x16384) 32 (transpose S1x16384 [1, 0] (m ((c : Thread nD τ).loc main_arg2)) Gen.transposes_S16384x1_S1x16384_1_0)
          Gen.natLt_1_32 := by
    show StableHlo.after Gen.hostOps0 (fun b => m (c, b)) (Proc.devRef .tc main_v5) = _
    after_results
  rw [e, extui_apply, transpose_ix2_apply]
  exact widen_eq_zero_iff _

/-- The left operand's index of the projection at output index j and contraction index k: row j 0 … -/
theorem proj_lhs_0 (j : S1x1024.Idx) (k : dot_S1x1024_S1024x1024_S1x1024_1_1_0_0_n_n.contr.Idx) :
    (dot_S1x1024_S1024x1024_S1x1024_1_1_0_0_n_n.lhsIdx j k 0).val = (j 0).val := rfl

/-- … and column k. -/
theorem proj_lhs_1 (j : S1x1024.Idx) (k : dot_S1x1024_S1024x1024_S1x1024_1_1_0_0_n_n.contr.Idx) :
    (dot_S1x1024_S1024x1024_S1x1024_1_1_0_0_n_n.lhsIdx j k 1).val = (k ⟨0, Nat.one_pos⟩).val := rfl

/-- The right operand's index: row j 1 (the output's column) … -/
theorem proj_rhs_0 (j : S1x1024.Idx) (k : dot_S1x1024_S1024x1024_S1x1024_1_1_0_0_n_n.contr.Idx) :
    (dot_S1x1024_S1024x1024_S1x1024_1_1_0_0_n_n.rhsIdx j k 0).val = (j 1).val := rfl

/-- … and column k. -/
theorem proj_rhs_1 (j : S1x1024.Idx) (k : dot_S1x1024_S1024x1024_S1x1024_1_1_0_0_n_n.contr.Idx) :
    (dot_S1x1024_S1024x1024_S1x1024_1_1_0_0_n_n.rhsIdx j k 1).val = (k ⟨0, Nat.one_pos⟩).val := rfl

/-- A row times a matrix stored output-major: entry (0, a) of the product is ∑ h, l[0, h] · r[a, h]. -/
theorem proj_apply (l : FVec Ideal S1x1024 .f32) (r : FVec Ideal S1024x1024 .f32) (a : Fin 1024) :
    Host.dotGeneral dot_S1x1024_S1024x1024_S1x1024_1_1_0_0_n_n (some .fp32) l r (ix2 (0 : Fin 1) a)
      = ∑ h : Fin 1024, l (ix2 (0 : Fin 1) h) * r (ix2 a h) := by
  refine (Ideal.dotGeneral_apply dot_S1x1024_S1024x1024_S1x1024_1_1_0_0_n_n (some .fp32) .single l r (ix2 (0 : Fin 1) a)).trans ?_
  rw [← Equiv.sum_comp (contrEquiv1 dot_S1x1024_S1024x1024_S1x1024_1_1_0_0_n_n 1024 rfl rfl).symm]
  refine Finset.sum_congr rfl fun k _ => ?_
  have hk := contrEquiv1_symm_val dot_S1x1024_S1024x1024_S1x1024_1_1_0_0_n_n 1024 rfl rfl k
  have el : dot_S1x1024_S1024x1024_S1x1024_1_1_0_0_n_n.lhsIdx (ix2 (0 : Fin 1) a)
      ((contrEquiv1 dot_S1x1024_S1024x1024_S1x1024_1_1_0_0_n_n 1024 rfl rfl).symm k) = ix2 (0 : Fin 1) k :=
    funext fun x => Fin.ext (by
      match x with
      | ⟨0, _⟩ => exact proj_lhs_0 _ _
      | ⟨1, _⟩ => exact (proj_lhs_1 _ _).trans hk)
  have er : dot_S1x1024_S1024x1024_S1x1024_1_1_0_0_n_n.rhsIdx (ix2 (0 : Fin 1) a)
      ((contrEquiv1 dot_S1x1024_S1024x1024_S1x1024_1_1_0_0_n_n 1024 rfl rfl).symm k) = ix2 a k :=
    funext fun x => Fin.ext (by
      match x with
      | ⟨0, _⟩ => exact proj_rhs_0 _ _
      | ⟨1, _⟩ => exact (proj_rhs_1 _ _).trans hk)
  rw [el, er]

/-- The decoder's projection as the region finds it: d a = ∑ h, dec h · W2 a h. -/
theorem V_v2 (m : (ℓ : Loc nD τ sig) → Buf (Elt Ideal) ℓ) (c : Dev nD) (a : Fin 1024) :
    Gen.V m c main_v2 (ix2 (0 : Fin 1) a)
      = Cert.Attn.dvec (m ((c : Thread nD τ).loc main_arg1)) (m ((c : Thread nD τ).loc main_arg3)) a := by
  have e : (Gen.V m c main_v2 : S1x1024.Idx → EReal)
      = Host.dotGeneral (F := Ideal) (φ₁ := .f32) (φ₂ := .f32) dot_S1x1024_S1024x1024_S1x1024_1_1_0_0_n_n (some .fp32)
          (m ((c : Thread nD τ).loc main_arg1)) (m ((c : Thread nD τ).loc main_arg3)) := by
    show StableHlo.after Gen.hostOps0 (fun b => m (c, b)) (Proc.devRef .tc main_v2) = _
    after_results
  rw [e]
  exact proj_apply _ _ a

/-- The weights W1 as the region finds them: the change of format is the identity on the extended reals. -/
theorem V_v3 (m : (ℓ : Loc nD τ sig) → Buf (Elt Ideal) ℓ) (c : Dev nD) (j : S1024x1024.Idx) :
    Gen.V m c main_v3 j = m ((c : Thread nD τ).loc main_arg4) j := by
  show StableHlo.after Gen.hostOps0 (fun b => m (c, b)) (Proc.devRef .tc main_v3) j = _
  after_results; rfl

/-- The scoring vector V, likewise. -/
theorem V_v4 (m : (ℓ : Loc nD τ sig) → Buf (Elt Ideal) ℓ) (c : Dev nD) (j : S1x1024.Idx) :
    Gen.V m c main_v4 j = m ((c : Thread nD τ).loc main_arg5) j := by
  show StableHlo.after Gen.hostOps0 (fun b => m (c, b)) (Proc.devRef .tc main_v4) j = _
  after_results; rfl

/-! ## After the region -/

/-- The logits' row turned into a column: entry (s, 0) of the result is entry (0, s) of the region's row. -/
theorem tail_u (W : Valuation τ sig (Elt Ideal)) (s : Fin 16384) :
    StableHlo.after (Gen.hostOps1 (F := Ideal)) W (Proc.devRef .tc main_v22) (ix2 s (0 : Fin 1))
      = W (Proc.devRef .tc main_v6_0) (ix2 (0 : Fin 1) s) := by
  have e : (StableHlo.after (Gen.hostOps1 (F := Ideal)) W (Proc.devRef .tc main_v22) : S16384x1.Idx → EReal)
      = shapeCast S16384x1 (W (Proc.devRef .tc main_v6_0)) Gen.shapeCasts_S1x16384_S16384x1 := by
    after_results <;> rfl
  rw [e]
  refine shapeCast_apply _ _ _ _ ?_
  show (S1x16384.rowMajor (ix2 (0 : Fin 1) s)).val = (S16384x1.rowMajor (ix2 s (0 : Fin 1))).val
  rw [Shape.rowMajor_val_two, Shape.rowMajor_val_two]
  show 0 * 16384 + s.val = s.val * 1 + 0
  omega

/-- The two cores' maxima as a vector of two. -/
def coreM (x1 : FVec Ideal S2x1x1 .f32) : FVec Ideal S2 .f32 := shapeCast S2 x1 Gen.shapeCasts_S2x1x1_S2

/-- The common maximum M of the two cores' maxima, from the word of -∞. -/
def coreMax (x1 : FVec Ideal S2x1x1 .f32) : FVec Ideal S_ .f32 :=
  Host.reduce (FloatOps.maximumf (F := Ideal)) (coreM x1) (constant (F := Ideal) S_ .f32 0xFF800000#32)
    Gen.reducesTo_S2_S_d0 Gen.h_S_

/-- Each core's weight exp (m_c - M). -/
def coreWeight (x1 : FVec Ideal S2x1x1 .f32) : FVec Ideal S2 .f32 :=
  Host.exp (F := Ideal) (subf (coreM x1) (broadcastInDim S2 ![] Gen.bcast_S_S2 (coreMax x1)))

/-- The nineteen operations after the region, as one function of the three per-core result arrays (maxima, normalisers,
    weighted sums): the weighted sums and normalisers each scaled by their core's weight, summed over the two cores
    from 0, and the quotient taken. -/
def tailOut (x1 x2 : FVec Ideal S2x1x1 .f32) (x3 : FVec Ideal S2x1x1024 .f32) : FVec Ideal S1024 .f32 :=
  Host.divf (F := Ideal)
    (Host.reduceAdd (F := Ideal)
      (mulf (shapeCast S2x1024 x3 Gen.shapeCasts_S2x1x1024_S2x1024)
        (broadcastInDim S2x1024 ![0, 1] Gen.bcast_S2x1_S2x1024_0_1 (broadcastInDim S2x1 ![0] Gen.bcast_S2_S2x1_0 (coreWeight x1))))
      (constant (F := Ideal) S_ .f32 0x00000000#32) Gen.reducesTo_S2x1024_S1024_d0 Gen.h_S_)
    (broadcastInDim S1024 ![] Gen.bcast_S_S1024
      (Host.reduceAdd (F := Ideal) (mulf (shapeCast S2 x2 Gen.shapeCasts_S2x1x1_S2) (coreWeight x1))
        (constant (F := Ideal) S_ .f32 0x00000000#32) Gen.reducesTo_S2_S_d0 Gen.h_S_))

/-- What the last line but one leaves in the result buffer is that function of the region's three per-core results. -/
theorem tail_out_eq (W : Valuation τ sig (Elt Ideal)) :
    (StableHlo.after (Gen.hostOps1 (F := Ideal)) W (Proc.devRef .tc main_v21) : S1024.Idx → EReal)
      = tailOut (W (Proc.devRef .tc main_v6_1)) (W (Proc.devRef .tc main_v6_2)) (W (Proc.devRef .tc main_v6_3)) := by
  after_results <;> rfl

/-- A function of the core is, at core c, its value at core 0 if c = 0 and its value at core 1 otherwise. -/
theorem two_cases {α : Type*} (f : Fin 2 → α) (c : Fin 2) : f c = if c = 0 then f 0 else f 1 := by
  match c with
  | ⟨0, _⟩ => rfl
  | ⟨1, _⟩ => rfl

/-- The word 0xFF800000 is -∞. -/
theorem neg_inf_word : Ideal.ofBits .f32 0xFF800000#32 = ⊥ := by simp [Ideal.ofBits, Ideal.ieee]

/-- Core c's maximum: entry (c, 0, 0) of the region's array of maxima. -/
theorem coreM_apply (x1 : FVec Ideal S2x1x1 .f32) (c : Fin 2) :
    coreM x1 (ix1 c) = x1 (ix3 c (0 : Fin 1) (0 : Fin 1)) := by
  unfold coreM
  refine shapeCast_apply _ _ _ _ ?_
  show (S2x1x1.rowMajor (ix3 c (0 : Fin 1) (0 : Fin 1))).val = (S2.rowMajor (ix1 c)).val
  rw [Shape.rowMajor_val_three, Shape.rowMajor_val_one]
  show (c.val * 1 + 0) * 1 + 0 = c.val
  omega

/-- Core c's normaliser, likewise. -/
theorem coreL_apply (x2 : FVec Ideal S2x1x1 .f32) (c : Fin 2) :
    shapeCast S2 x2 Gen.shapeCasts_S2x1x1_S2 (ix1 c) = x2 (ix3 c (0 : Fin 1) (0 : Fin 1)) := coreM_apply x2 c

/-- Core c's weighted sum at column k: entry (c, 0, k) of the region's array of weighted sums. -/
theorem coreAcc_apply (x3 : FVec Ideal S2x1x1024 .f32) (c : Fin 2) (k : Fin 1024) :
    shapeCast S2x1024 x3 Gen.shapeCasts_S2x1x1024_S2x1024 (ix2 c k) = x3 (ix3 c (0 : Fin 1) k) := by
  refine shapeCast_apply _ _ _ _ ?_
  show (S2x1x1024.rowMajor (ix3 c (0 : Fin 1) k)).val = (S2x1024.rowMajor (ix2 c k)).val
  rw [Shape.rowMajor_val_three, Shape.rowMajor_val_two]
  show (c.val * 1 + 0) * 1024 + k.val = c.val * 1024 + k.val
  omega

/-- An index of the vector over the cores is a core. -/
def coreEquiv : S2.Idx ≃ Fin 2 where
  toFun i := i 0
  invFun c := ix1 c
  left_inv i := (eq_ix1 i).symm
  right_inv _ := rfl

/-- The index of core c over column h of a reduction over the cores. -/
theorem lift_cols (hr : S2x1024.Reduces [0] S1024) (h : Fin 1024) (c : Fin 2) : hr.lift (ix1 h) c = ix2 c h :=
  funext fun d => Fin.ext (by match d with | ⟨0, _⟩ => rfl | ⟨1, _⟩ => rfl)

/-- The common maximum is the fold of max from -∞ over the two cores' maxima. -/
theorem coreMax_apply (x1 : FVec Ideal S2x1x1 .f32) (j : S_.Idx) :
    coreMax x1 j = (Finset.univ : Finset (Fin 2)).fold max ⊥
      (fun c => if c = 0 then x1 (ix3 (0 : Fin 2) (0 : Fin 1) (0 : Fin 1)) else x1 (ix3 (1 : Fin 2) (0 : Fin 1) (0 : Fin 1))) := by
  unfold coreMax
  -- every index of the two-vector drops to the one empty index: the fold runs over all of them
  rw [Host.reduce_eq_fold, Finset.filter_true_of_mem fun i _ => funext fun b => b.elim0]
  show (Finset.univ : Finset S2.Idx).fold max (Ideal.ofBits .f32 0xFF800000#32) (coreM x1) = _
  rw [neg_inf_word, ← Finset.map_univ_equiv coreEquiv.symm, Finset.fold_map]
  refine Finset.fold_congr fun c _ => ?_
  show coreM x1 (ix1 c) = _
  rw [coreM_apply]
  exact two_cases (fun c => x1 (ix3 c (0 : Fin 1) (0 : Fin 1))) c

/-- Core c's weight is exp (m_c - M). -/
theorem coreWeight_apply (x1 : FVec Ideal S2x1x1 .f32) (c : Fin 2) :
    coreWeight x1 (ix1 c) = Ideal.exp (x1 (ix3 c (0 : Fin 1) (0 : Fin 1)) - coreMax x1 ix0) := by
  unfold coreWeight
  show Ideal.exp (coreM x1 (ix1 c) - broadcastInDim S2 ![] Gen.bcast_S_S2 (coreMax x1) (ix1 c)) = _
  rw [coreM_apply, broadcastInDim_apply _ _ (coreMax x1) (ix1 c) ix0 (fun a => a.elim0)]

/-- A vector over the cores broadcast along the columns reads, at (c, h), the vector at c. -/
theorem bcast_cols_apply (w : FVec Ideal S2 .f32) (c : Fin 2) (h : Fin 1024) :
    broadcastInDim S2x1024 ![0, 1] Gen.bcast_S2x1_S2x1024_0_1 (broadcastInDim S2x1 ![0] Gen.bcast_S2_S2x1_0 w) (ix2 c h)
      = w (ix1 c) := by
  rw [broadcastInDim_apply _ _ _ (ix2 c h) (ix2 c (0 : Fin 1)) (fun a => by match a with | ⟨0, _⟩ => rfl | ⟨1, _⟩ => rfl),
    broadcastInDim_apply _ _ _ (ix2 c (0 : Fin 1)) (ix1 c) (fun a => by match a with | ⟨0, _⟩ => rfl)]

/-- The host's sum over the two cores of a vector, from the word of 0: 0 + ∑ c, x c. -/
theorem sumCores_apply (x : FVec Ideal S2 .f32) (j : S_.Idx) :
    Host.reduceAdd (F := Ideal) x (constant (F := Ideal) S_ .f32 0x00000000#32) Gen.reducesTo_S2_S_d0 Gen.h_S_ j
      = 0 + ∑ c : Fin 2, x (ix1 c) := by
  show Ideal.hostReduceAdd Gen.reducesTo_S2_S_d0 x (Ideal.ofBits .f32 0x00000000#32) j = _
  rw [Ideal.hostReduceAdd_total _ (fun b => b.elim0), Ideal.ofBits_zero_f32, ← Equiv.sum_comp coreEquiv.symm x]
  rfl

/-- The host's sum over the two cores of a 2 × 1024 array, column h, from the word of 0: 0 + ∑ c, x (c, h). -/
theorem sumCols_apply (x : FVec Ideal S2x1024 .f32) (h : Fin 1024) :
    Host.reduceAdd (F := Ideal) x (constant (F := Ideal) S_ .f32 0x00000000#32) Gen.reducesTo_S2x1024_S1024_d0 Gen.h_S_ (ix1 h)
      = 0 + ∑ c : Fin 2, x (ix2 c h) := by
  have hr : S2x1024.Reduces [0] S1024 := by decide
  show Ideal.hostReduceAdd Gen.reducesTo_S2x1024_S1024_d0 x (Ideal.ofBits .f32 0x00000000#32) (ix1 h) = _
  rw [Ideal.hostReduceAdd_single _ hr, Ideal.ofBits_zero_f32]
  show 0 + ∑ c : Fin 2, x (hr.lift (ix1 h) c) = _
  simp only [lift_cols]

/-- The stretch after the region, column h: the two cores' states merged. -/
theorem tailOut_apply (x1 x2 : FVec Ideal S2x1x1 .f32) (x3 : FVec Ideal S2x1x1024 .f32) (h : Fin 1024) :
    tailOut x1 x2 x3 (ix1 h)
      = Cert.Attn.merged
          ⟨x1 (ix3 (0 : Fin 2) (0 : Fin 1) (0 : Fin 1)), x2 (ix3 (0 : Fin 2) (0 : Fin 1) (0 : Fin 1)), fun k => x3 (ix3 (0 : Fin 2) (0 : Fin 1) k)⟩
          ⟨x1 (ix3 (1 : Fin 2) (0 : Fin 1) (0 : Fin 1)), x2 (ix3 (1 : Fin 2) (0 : Fin 1) (0 : Fin 1)), fun k => x3 (ix3 (1 : Fin 2) (0 : Fin 1) k)⟩ h := by
  -- each core's weight, in the specification's spelling
  have hw : ∀ c : Fin 2, coreWeight x1 (ix1 c)
      = Ideal.exp ((if c = 0 then x1 (ix3 (0 : Fin 2) (0 : Fin 1) (0 : Fin 1)) else x1 (ix3 (1 : Fin 2) (0 : Fin 1) (0 : Fin 1)))
          - (Finset.univ : Finset (Fin 2)).fold max ⊥
              (fun c => if c = 0 then x1 (ix3 (0 : Fin 2) (0 : Fin 1) (0 : Fin 1)) else x1 (ix3 (1 : Fin 2) (0 : Fin 1) (0 : Fin 1)))) := by
    intro c
    rw [coreWeight_apply, coreMax_apply]
    exact congrArg (fun t => Ideal.exp (t - _)) (two_cases (fun c => x1 (ix3 c (0 : Fin 1) (0 : Fin 1))) c)
  -- the weighted sums' terms
  have hnum : ∀ c : Fin 2,
      mulf (shapeCast S2x1024 x3 Gen.shapeCasts_S2x1x1024_S2x1024)
          (broadcastInDim S2x1024 ![0, 1] Gen.bcast_S2x1_S2x1024_0_1 (broadcastInDim S2x1 ![0] Gen.bcast_S2_S2x1_0 (coreWeight x1))) (ix2 c h)
        = (if c = 0 then x3 (ix3 (0 : Fin 2) (0 : Fin 1) h) else x3 (ix3 (1 : Fin 2) (0 : Fin 1) h))
          * Ideal.exp ((if c = 0 then x1 (ix3 (0 : Fin 2) (0 : Fin 1) (0 : Fin 1)) else x1 (ix3 (1 : Fin 2) (0 : Fin 1) (0 : Fin 1)))
              - (Finset.univ : Finset (Fin 2)).fold max ⊥
                  (fun c => if c = 0 then x1 (ix3 (0 : Fin 2) (0 : Fin 1) (0 : Fin 1)) else x1 (ix3 (1 : Fin 2) (0 : Fin 1) (0 : Fin 1)))) := by
    intro c
    rw [mulf_apply, coreAcc_apply, bcast_cols_apply, hw c]
    exact congrArg (· * _) (two_cases (fun c => x3 (ix3 c (0 : Fin 1) h)) c)
  -- the normalisers' terms
  have hden : ∀ c : Fin 2,
      mulf (shapeCast S2 x2 Gen.shapeCasts_S2x1x1_S2) (coreWeight x1) (ix1 c)
        = (if c = 0 then x2 (ix3 (0 : Fin 2) (0 : Fin 1) (0 : Fin 1)) else x2 (ix3 (1 : Fin 2) (0 : Fin 1) (0 : Fin 1)))
          * Ideal.exp ((if c = 0 then x1 (ix3 (0 : Fin 2) (0 : Fin 1) (0 : Fin 1)) else x1 (ix3 (1 : Fin 2) (0 : Fin 1) (0 : Fin 1)))
              - (Finset.univ : Finset (Fin 2)).fold max ⊥
                  (fun c => if c = 0 then x1 (ix3 (0 : Fin 2) (0 : Fin 1) (0 : Fin 1)) else x1 (ix3 (1 : Fin 2) (0 : Fin 1) (0 : Fin 1)))) := by
    intro c
    rw [mulf_apply, coreL_apply, hw c]
    exact congrArg (· * _) (two_cases (fun c => x2 (ix3 c (0 : Fin 1) (0 : Fin 1))) c)
  unfold tailOut Cert.Attn.merged
  show Ideal.div
      (Host.reduceAdd (F := Ideal) _ (constant (F := Ideal) S_ .f32 0x00000000#32) Gen.reducesTo_S2x1024_S1024_d0 Gen.h_S_ (ix1 h))
      (broadcastInDim S1024 ![] Gen.bcast_S_S1024
        (Host.reduceAdd (F := Ideal) _ (constant (F := Ideal) S_ .f32 0x00000000#32) Gen.reducesTo_S2_S_d0 Gen.h_S_) (ix1 h)) = _
  rw [sumCols_apply, broadcastInDim_apply _ _ _ (ix1 h) ix0 (fun a => a.elim0), sumCores_apply]
  simp only [hnum, hden]

/-- The result of the program, column h: the two cores' final states, read off the region's per-core results, merged. -/
theorem tail_out (W : Valuation τ sig (Elt Ideal)) (h : Fin 1024) :
    StableHlo.after (Gen.hostOps1 (F := Ideal)) W (Proc.devRef .tc main_v21) (ix1 h)
      = Cert.Attn.merged
          ⟨W (Proc.devRef .tc main_v6_1) (ix3 (0 : Fin 2) (0 : Fin 1) (0 : Fin 1)), W (Proc.devRef .tc main_v6_2) (ix3 (0 : Fin 2) (0 : Fin 1) (0 : Fin 1)),
            fun k => W (Proc.devRef .tc main_v6_3) (ix3 (0 : Fin 2) (0 : Fin 1) k)⟩
          ⟨W (Proc.devRef .tc main_v6_1) (ix3 (1 : Fin 2) (0 : Fin 1) (0 : Fin 1)), W (Proc.devRef .tc main_v6_2) (ix3 (1 : Fin 2) (0 : Fin 1) (0 : Fin 1)),
            fun k => W (Proc.devRef .tc main_v6_3) (ix3 (1 : Fin 2) (0 : Fin 1) k)⟩ h := by
  rw [tail_out_eq W]
  exact tailOut_apply _ _ _ h

end Cert.KernelIdeal.HostSides

end
-- ==== Proof.LogitReal.lean ====
/-
  The attention logit is a real number whenever the scoring vector is real.

  tanh of any extended real is a real number (tanh (-∞) = -1, tanh ∞ = 1), so each term V a · tanh (…) of the logit is
  a product of two real numbers, and a finite sum of real numbers is a real number. Nothing is asked of the encoder
  output, the decoder state or the weight matrices. A masked logit is therefore -∞ or a real number: never ∞, and not
  -∞ where the mask bit is clear.
-/
import proofs.«423131_j63548336112291_3_alg».proof.Proof.SpecLogit
import Mathlib.Data.EReal.Operations
import Mathlib.Algebra.BigOperators.Fin

noncomputable section

namespace Cert.Attn

open Idealize.ShloMosaic Idealize.ShloMosaic.ValueIdx
open scoped BigOperators

namespace LogitReal

/-- tanh of any extended real is a real number. -/
theorem tanh_isReal (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- A finite sum of real numbers, taken in the extended reals, is a real number. -/
theorem sum_isReal {ι : Type*} (T : Finset ι) (f : ι → EReal) (hf : ∀ s ∈ T, ∃ r : ℝ, f s = (r : EReal)) :
    ∃ r : ℝ, ∑ s ∈ T, f s = (r : EReal) := by
  classical
  induction T using Finset.induction_on with
  | empty => exact ⟨0, by rw [Finset.sum_empty, EReal.coe_zero]⟩
  | insert a T ha ih =>
    obtain ⟨r, hr⟩ := hf a (Finset.mem_insert_self a T)
    obtain ⟨t, ht⟩ := ih (fun s hs => hf s (Finset.mem_insert_of_mem hs))
    exact ⟨r + t, by rw [Finset.sum_insert ha, hr, ht, EReal.coe_add]⟩

end LogitReal

open LogitReal in
/-- The logit of every position is a real number when the scoring vector is real. -/
theorem logit_isReal (enc : (⟨3, ![16384, 1, 1024]⟩ : Shape).Idx → EReal) (dec : (⟨2, ![1, 1024]⟩ : Shape).Idx → EReal)
    (W2 W1 : (⟨2, ![1024, 1024]⟩ : Shape).Idx → EReal) (V : (⟨2, ![1, 1024]⟩ : Shape).Idx → EReal)
    (hV : ∀ i, ∃ r : ℝ, V i = (r : EReal)) (s : Fin 16384) :
    ∃ r : ℝ, logit enc dec W2 W1 V s = (r : EReal) := by
  unfold logit
  apply sum_isReal
  intro a _
  obtain ⟨v, hv⟩ := hV (ix2 (0 : Fin 1) a)
  obtain ⟨t, ht⟩ := tanh_isReal (dvec dec W2 a + ∑ h : Fin 1024, encAt enc s h * W1 (ix2 a h))
  exact ⟨v * t, by rw [hv, act, ht, EReal.coe_mul]⟩

/-- A masked logit is never ∞. -/
theorem maskedLogit_ne_top (enc : (⟨3, ![16384, 1, 1024]⟩ : Shape).Idx → EReal)
    (dec : (⟨2, ![1, 1024]⟩ : Shape).Idx → EReal) (msk : (⟨2, ![16384, 1]⟩ : Shape).Idx → BitVec 1)
    (W2 W1 : (⟨2, ![1024, 1024]⟩ : Shape).Idx → EReal) (V : (⟨2, ![1, 1024]⟩ : Shape).Idx → EReal)
    (hV : ∀ i, ∃ r : ℝ, V i = (r : EReal)) (s : Fin 16384) :
    maskedLogit enc dec msk W2 W1 V s ≠ ⊤ := by
  unfold maskedLogit
  split_ifs
  · exact bot_ne_top
  · obtain ⟨r, hr⟩ := logit_isReal enc dec W2 W1 V hV s
    rw [hr]
    exact EReal.coe_ne_top r

/-- The masked logit of a position whose mask bit is clear is not -∞. -/
theorem maskedLogit_ne_bot_of_unmasked (enc : (⟨3, ![16384, 1, 1024]⟩ : Shape).Idx → EReal)
    (dec : (⟨2, ![1, 1024]⟩ : Shape).Idx → EReal) (msk : (⟨2, ![16384, 1]⟩ : Shape).Idx → BitVec 1)
    (W2 W1 : (⟨2, ![1024, 1024]⟩ : Shape).Idx → EReal) (V : (⟨2, ![1, 1024]⟩ : Shape).Idx → EReal)
    (hV : ∀ i, ∃ r : ℝ, V i = (r : EReal)) (s : Fin 16384) (hs : msk (ix2 s (0 : Fin 1)) ≠ 1#1) :
    maskedLogit enc dec msk W2 W1 V s ≠ ⊥ := by
  unfold maskedLogit
  rw [if_neg hs]
  obtain ⟨r, hr⟩ := logit_isReal enc dec W2 W1 V hV s
  rw [hr]
  exact EReal.coe_ne_bot r

end Cert.Attn

end
-- ==== Proof.SoftmaxMath.lean ====
/-
  The two-core online softmax is the softmax, over the extended reals.

  Plan. For a finite set T of positions the closed form of a core's state is
  (max of u over T, ∑ over T of exp (u s - max), ∑ over T of exp (u s - max) · e s h).
  The state before the first tile is the closed form of the empty set, and one tile's update takes the closed form of T
  to that of T with the tile added: the new maximum is the maximum over the union, and the old sums are carried over by
  the shift law exp (b - c) · exp (a - b) = exp (a - c) for a ≤ b ≤ c < ∞, which also holds when a or b is -∞.
  All the numbers that are multiplied and added are real, so the sums can be rearranged in ℝ.
  Hence each core ends in the closed form of its half of the sequence; the merge rescales both halves to the common
  maximum, which is real because some logit is, and the quotient is the softmax-weighted sum.
-/
import proofs.«423131_j63548336112291_3_alg».proof.Proof.Spec

noncomputable section

namespace Cert.Attn

open Idealize.ShloMosaic
open scoped BigOperators

namespace SoftmaxMath

/-! ### Extended-real arithmetic -/

/-- A fold of max from -∞ is the finite supremum. -/
theorem fold_max_eq_sup {ι : Type*} (s : Finset ι) (f : ι → EReal) : s.fold max ⊥ f = s.sup f := by
  apply le_antisymm
  · rw [Finset.fold_max_le]; exact ⟨bot_le, fun x hx => Finset.le_sup hx⟩
  · rw [Finset.sup_le_iff]; intro x hx; rw [Finset.le_fold_max]; exact Or.inr ⟨x, hx, le_rfl⟩

/-- A finite sum of real numbers, taken in the extended reals, is the real sum. -/
theorem coe_sum {ι : Type*} (T : Finset ι) (f : ι → ℝ) :
    ∑ s ∈ T, ((f s : ℝ) : EReal) = ((∑ s ∈ T, f s : ℝ) : EReal) := by
  classical
  induction T using Finset.induction_on with
  | empty => simp
  | insert a T ha ih => rw [Finset.sum_insert ha, Finset.sum_insert ha, ih, EReal.coe_add]

/-- A real factor distributes over a finite sum of real numbers in the extended reals. -/
theorem mul_sum_real {ι : Type*} (c : ℝ) (T : Finset ι) (f : ι → EReal)
    (hf : ∀ s ∈ T, ∃ r : ℝ, f s = (r : EReal)) :
    (c : EReal) * ∑ s ∈ T, f s = ∑ s ∈ T, (c : EReal) * f s := by
  have h1 : ∀ s ∈ T, f s = (((f s).toReal : ℝ) : EReal) := by
    intro s hs; obtain ⟨r, hr⟩ := hf s hs; rw [hr, EReal.toReal_coe]
  have h2 : ∀ s ∈ T, (c : EReal) * f s = ((c * (f s).toReal : ℝ) : EReal) := by
    intro s hs; rw [EReal.coe_mul, ← h1 s hs]
  rw [Finset.sum_congr rfl h1, Finset.sum_congr rfl h2, coe_sum, coe_sum, ← EReal.coe_mul, Finset.mul_sum]

/-- exp (a - b) for a ≤ b < ∞ is a nonnegative real number. -/
theorem exp_sub_real {a b : EReal} (hab : a ≤ b) (hb : b ≠ ⊤) :
    ∃ r : ℝ, 0 ≤ r ∧ Ideal.exp (a - b) = (r : EReal) := by
  induction b using EReal.rec with
  | bot =>
    have ha : a = ⊥ := le_bot_iff.mp hab
    subst ha
    exact ⟨0, le_rfl, by simp [EReal.bot_sub]⟩
  | top => exact absurd rfl hb
  | coe b =>
    induction a using EReal.rec with
    | bot => exact ⟨0, le_rfl, by simp [EReal.bot_sub]⟩
    | top => simp at hab
    | coe a => exact ⟨Real.exp (a - b), (Real.exp_pos _).le, by rw [← EReal.coe_sub, Ideal.exp_coe]⟩

/-- The shift law: for a ≤ b ≤ c < ∞, exp (b - c) · exp (a - b) = exp (a - c). -/
theorem exp_shift {a b c : EReal} (hab : a ≤ b) (hbc : b ≤ c) (hc : c ≠ ⊤) :
    Ideal.exp (b - c) * Ideal.exp (a - b) = Ideal.exp (a - c) := by
  induction b using EReal.rec with
  | bot =>
    have ha : a = ⊥ := le_bot_iff.mp hab
    subst ha
    simp [EReal.bot_sub]
  | top => exact absurd (top_le_iff.mp hbc) hc
  | coe b =>
    induction c using EReal.rec with
    | bot => simp at hbc
    | top => exact absurd rfl hc
    | coe c =>
      induction a using EReal.rec with
      | bot => simp [EReal.bot_sub]
      | top => simp at hab
      | coe a =>
        rw [← EReal.coe_sub, ← EReal.coe_sub, ← EReal.coe_sub, Ideal.exp_coe, Ideal.exp_coe, Ideal.exp_coe,
          ← EReal.coe_mul, ← Real.exp_add]
        congr 2; ring

/-! ### Tiles and runs of tiles as sets of positions -/

/-- The positions of a tile are distinct. -/
theorem tileIx_injective (n : ℕ) : Function.Injective (tileIx n) := by
  intro i j hij
  have h := congrArg Fin.val hij
  simp only [tileIx] at h
  have hi := i.isLt
  have hj := j.isLt
  ext
  omega

/-- The set of positions of tile n. -/
def tile (n : ℕ) : Finset (Fin 16384) := Finset.univ.map ⟨tileIx n, tileIx_injective n⟩

/-- The set of positions of the tiles a, …, b - 1. -/
def seg (a b : ℕ) : Finset (Fin 16384) :=
  Finset.univ.filter fun s => 1024 * a ≤ s.val ∧ s.val < 1024 * b

theorem mem_tile {n : ℕ} (hn : n < 16) (s : Fin 16384) :
    s ∈ tile n ↔ 1024 * n ≤ s.val ∧ s.val < 1024 * (n + 1) := by
  simp only [tile, Finset.mem_map, Finset.mem_univ, true_and, Function.Embedding.coeFn_mk]
  constructor
  · rintro ⟨i, rfl⟩
    have := i.isLt
    simp only [tileIx]
    omega
  · intro h
    refine ⟨⟨s.val - 1024 * n, by omega⟩, ?_⟩
    have := s.isLt
    ext
    simp only [tileIx]
    omega

theorem mem_seg (a b : ℕ) (s : Fin 16384) : s ∈ seg a b ↔ 1024 * a ≤ s.val ∧ s.val < 1024 * b := by
  simp [seg]

theorem seg_succ {a n : ℕ} (han : a ≤ n) (hn : n < 16) : seg a (n + 1) = seg a n ∪ tile n := by
  ext s
  rw [Finset.mem_union, mem_seg, mem_seg, mem_tile hn]
  omega

theorem seg_self_succ {n : ℕ} (hn : n < 16) : seg n (n + 1) = tile n := by
  ext s
  rw [mem_seg, mem_tile hn]

theorem seg_disjoint_tile (a : ℕ) {n : ℕ} (hn : n < 16) : Disjoint (seg a n) (tile n) := by
  rw [Finset.disjoint_left]
  intro s hs ht
  rw [mem_seg] at hs
  rw [mem_tile hn] at ht
  omega

/-! ### The closed form of a core's state -/

/-- The closed form over a set T of positions: the maximum of u over T, the sum of exp (u - max) over T, and the
    sum of exp (u - max) · e over T. -/
def cf (u : Fin 16384 → EReal) (e : Fin 16384 → Fin 1024 → EReal) (T : Finset (Fin 16384)) : St :=
  { m := T.sup u
    l := ∑ s ∈ T, Ideal.exp (u s - T.sup u)
    acc := fun h => ∑ s ∈ T, Ideal.exp (u s - T.sup u) * e s h }

/-- A finite supremum of values below ∞ is below ∞. -/
theorem sup_ne_top {ι : Type*} (T : Finset ι) (u : ι → EReal) (hu : ∀ s, u s ≠ ⊤) : T.sup u ≠ ⊤ := by
  apply ne_of_lt
  rw [Finset.sup_lt_iff bot_lt_top]
  intro s _
  exact lt_top_iff_ne_top.mpr (hu s)

/-- Moving the maximum: for sup u ≤ m' < ∞ and real g,
    exp (sup u - m') · ∑ exp (u s - sup u) · g s = ∑ exp (u s - m') · g s. -/
theorem rescale_sum {ι : Type*} (T : Finset ι) (u g : ι → EReal) (hg : ∀ s, ∃ r : ℝ, g s = (r : EReal))
    {m' : EReal} (hm : T.sup u ≤ m') (hm' : m' ≠ ⊤) :
    Ideal.exp (T.sup u - m') * ∑ s ∈ T, Ideal.exp (u s - T.sup u) * g s
      = ∑ s ∈ T, Ideal.exp (u s - m') * g s := by
  obtain ⟨c, -, hc⟩ := exp_sub_real hm hm'
  rw [hc, mul_sum_real]
  · apply Finset.sum_congr rfl
    intro s hs
    rw [← hc, ← mul_assoc, exp_shift (Finset.le_sup hs) hm hm']
  · intro s hs
    obtain ⟨r, -, hr⟩ := exp_sub_real (Finset.le_sup (f := u) hs) (ne_top_of_le_ne_top hm' hm)
    obtain ⟨q, hq⟩ := hg s
    exact ⟨r * q, by rw [hr, hq, EReal.coe_mul]⟩

/-- The same without the factor g. -/
theorem rescale_sum_one {ι : Type*} (T : Finset ι) (u : ι → EReal)
    {m' : EReal} (hm : T.sup u ≤ m') (hm' : m' ≠ ⊤) :
    Ideal.exp (T.sup u - m') * ∑ s ∈ T, Ideal.exp (u s - T.sup u) = ∑ s ∈ T, Ideal.exp (u s - m') := by
  have h := rescale_sum T u (fun _ => ((1 : ℝ) : EReal)) (fun _ => ⟨1, rfl⟩) hm hm'
  simpa using h

/-- The state before the first tile is the closed form of the empty set. -/
theorem init_eq_cf (u : Fin 16384 → EReal) (e : Fin 16384 → Fin 1024 → EReal) : St.init = cf u e ∅ := by
  simp [St.init, cf]

/-- One tile's update takes the closed form of T to the closed form of T with the tile added. -/
theorem step_cf (u : Fin 16384 → EReal) (e : Fin 16384 → Fin 1024 → EReal)
    (hu : ∀ s, u s ≠ ⊤) (he : ∀ s h, ∃ r : ℝ, e s h = (r : EReal))
    (T : Finset (Fin 16384)) (n : ℕ) (hd : Disjoint T (tile n)) :
    (cf u e T).step (fun i => u (tileIx n i)) (fun i h => e (tileIx n i) h) = cf u e (T ∪ tile n) := by
  have hmax : tileMax (fun i => u (tileIx n i)) = (tile n).sup u := by
    rw [tileMax, fold_max_eq_sup, tile, Finset.sup_map]
    rfl
  have hM : max (T.sup u) ((tile n).sup u) = (T ∪ tile n).sup u := by
    rw [Finset.sup_union]
  have hle : T.sup u ≤ (T ∪ tile n).sup u := Finset.sup_mono Finset.subset_union_left
  have hne : (T ∪ tile n).sup u ≠ ⊤ := sup_ne_top _ u hu
  have hsumtile : ∀ f : Fin 16384 → EReal, ∑ i : Fin 1024, f (tileIx n i) = ∑ s ∈ tile n, f s := by
    intro f
    rw [tile, Finset.sum_map]
    rfl
  simp only [St.step, cf, hmax, hM]
  congr 1
  · rw [rescale_sum_one T u hle hne, Finset.sum_union hd,
      hsumtile (fun s => Ideal.exp (u s - (T ∪ tile n).sup u))]
  · funext h
    rw [rescale_sum T u (fun s => e s h) (fun s => he s h) hle hne, Finset.sum_union hd,
      hsumtile (fun s => Ideal.exp (u s - (T ∪ tile n).sup u) * e s h)]

/-- After grid point n < 16 the state is the closed form of the tiles its core has seen: from the core's first tile
    8 · (n / 8) up to tile n. -/
theorem stAt_eq (u : Fin 16384 → EReal) (e : Fin 16384 → Fin 1024 → EReal)
    (hu : ∀ s, u s ≠ ⊤) (he : ∀ s h, ∃ r : ℝ, e s h = (r : EReal)) :
    ∀ n, n < 16 → stAt u e n = cf u e (seg (8 * (n / 8)) (n + 1))
  | 0, _ => by
    rw [stAt, init_eq_cf u e, step_cf u e hu he ∅ 0 (Finset.disjoint_empty_left _), Finset.empty_union]
    exact congrArg (cf u e) (seg_self_succ (by norm_num)).symm
  | n + 1, hn => by
    rw [stAt]
    split_ifs with h8
    · rw [init_eq_cf u e, step_cf u e hu he ∅ (n + 1) (Finset.disjoint_empty_left _), Finset.empty_union]
      have h1 : 8 * ((n + 1) / 8) = n + 1 := by omega
      rw [h1, seg_self_succ hn]
    · rw [stAt_eq u e hu he n (by omega), step_cf u e hu he _ (n + 1) (seg_disjoint_tile _ hn)]
      have h1 : 8 * ((n + 1) / 8) = 8 * (n / 8) := by omega
      rw [h1, seg_succ (by omega) hn]

/-! ### The merge and the reference -/

/-- A fold of max from -∞ over two values is their maximum. -/
theorem fold_max_two (a b : EReal) :
    (Finset.univ : Finset (Fin 2)).fold max ⊥ (fun c => if c = 0 then a else b) = max a b := by
  rw [fold_max_eq_sup]
  apply le_antisymm
  · apply Finset.sup_le
    intro c _
    by_cases hc : c = 0
    · simp [hc]
    · simp [hc]
  · apply max_le
    · have h := Finset.le_sup (f := fun c : Fin 2 => if c = 0 then a else b) (Finset.mem_univ 0)
      simpa using h
    · have h := Finset.le_sup (f := fun c : Fin 2 => if c = 0 then a else b) (Finset.mem_univ 1)
      simpa using h

/-- The merged quotient, written out over the two cores. -/
theorem merged_eq (s0 s1 : St) (h : Fin 1024) :
    merged s0 s1 h
      = Ideal.div
          (s0.acc h * Ideal.exp (s0.m - max s0.m s1.m) + s1.acc h * Ideal.exp (s1.m - max s0.m s1.m))
          (s0.l * Ideal.exp (s0.m - max s0.m s1.m) + s1.l * Ideal.exp (s1.m - max s0.m s1.m)) := by
  simp only [merged, fold_max_two, Fin.sum_univ_two, zero_add, if_true, Fin.isValue, one_ne_zero, if_false]

/-- The reference, with its maximum written as the supremum over all positions. -/
theorem softmaxOut_eq (u : Fin 16384 → EReal) (e : Fin 16384 → Fin 1024 → EReal) (h : Fin 1024) :
    softmaxOut u e h
      = ∑ s : Fin 16384,
          Ideal.div (Ideal.exp (u s - Finset.univ.sup u)) (∑ s' : Fin 16384, Ideal.exp (u s' - Finset.univ.sup u))
            * e s h := by
  simp only [softmaxOut, fold_max_eq_sup, max_bot_left, zero_add]

end SoftmaxMath

open SoftmaxMath in
/-- The two-core online softmax is the softmax: for logits that are real or -∞, not all -∞, and a real matrix. -/
theorem merged_eq_softmaxOut (u : Fin 16384 → EReal) (e : Fin 16384 → Fin 1024 → EReal)
    (hu : ∀ s, u s ≠ ⊤) (hsome : ∃ s, u s ≠ ⊥) (he : ∀ s h, ∃ r : ℝ, e s h = (r : EReal)) (h : Fin 1024) :
    merged (stAt u e 7) (stAt u e 15) h = softmaxOut u e h := by
  -- the two cores' final states are the closed forms of the two halves of the sequence
  have h0 : stAt u e 7 = cf u e (seg 0 8) := stAt_eq u e hu he 7 (by norm_num)
  have h1 : stAt u e 15 = cf u e (seg 8 16) := stAt_eq u e hu he 15 (by norm_num)
  have hun : seg 0 8 ∪ seg 8 16 = Finset.univ := by
    ext s
    have := s.isLt
    simp only [Finset.mem_union, mem_seg, Finset.mem_univ, iff_true]
    omega
  have hdis : Disjoint (seg 0 8) (seg 8 16) := by
    rw [Finset.disjoint_left]
    intro s hs ht
    rw [mem_seg] at hs ht
    omega
  -- the common maximum is the maximum over all positions, a real number
  have hMeq : max ((seg 0 8).sup u) ((seg 8 16).sup u) = Finset.univ.sup u := by
    rw [← hun, Finset.sup_union]
  have hMtop : Finset.univ.sup u ≠ ⊤ := sup_ne_top _ u hu
  obtain ⟨s₀, hs₀⟩ := hsome
  have hMbot : Finset.univ.sup u ≠ ⊥ := by
    intro hb
    exact hs₀ (le_bot_iff.mp (hb ▸ Finset.le_sup (f := u) (Finset.mem_univ s₀)))
  obtain ⟨M, hM⟩ : ∃ M : ℝ, Finset.univ.sup u = (M : EReal) := ⟨_, (EReal.coe_toReal hMtop hMbot).symm⟩
  have hle0 : (seg 0 8).sup u ≤ Finset.univ.sup u := Finset.sup_mono (Finset.subset_univ _)
  have hle1 : (seg 8 16).sup u ≤ Finset.univ.sup u := Finset.sup_mono (Finset.subset_univ _)
  -- each core's sums, rescaled to the common maximum, add up to the sums over all positions
  have hnum : (∑ s ∈ seg 0 8, Ideal.exp (u s - (seg 0 8).sup u) * e s h)
        * Ideal.exp ((seg 0 8).sup u - Finset.univ.sup u)
      + (∑ s ∈ seg 8 16, Ideal.exp (u s - (seg 8 16).sup u) * e s h)
        * Ideal.exp ((seg 8 16).sup u - Finset.univ.sup u)
      = ∑ s : Fin 16384, Ideal.exp (u s - Finset.univ.sup u) * e s h := by
    rw [mul_comm, rescale_sum _ u (fun s => e s h) (fun s => he s h) hle0 hMtop,
      mul_comm (∑ s ∈ seg 8 16, _), rescale_sum _ u (fun s => e s h) (fun s => he s h) hle1 hMtop,
      ← Finset.sum_union hdis, hun]
  have hden : (∑ s ∈ seg 0 8, Ideal.exp (u s - (seg 0 8).sup u))
        * Ideal.exp ((seg 0 8).sup u - Finset.univ.sup u)
      + (∑ s ∈ seg 8 16, Ideal.exp (u s - (seg 8 16).sup u))
        * Ideal.exp ((seg 8 16).sup u - Finset.univ.sup u)
      = ∑ s : Fin 16384, Ideal.exp (u s - Finset.univ.sup u) := by
    rw [mul_comm, rescale_sum_one _ u hle0 hMtop,
      mul_comm (∑ s ∈ seg 8 16, _), rescale_sum_one _ u hle1 hMtop,
      ← Finset.sum_union hdis, hun]
  -- the weights and the matrix entries as real numbers
  choose p hp0 hp using fun s => exp_sub_real (Finset.le_sup (f := u) (Finset.mem_univ s)) hMtop
  choose q hq using fun s => he s h
  -- the normaliser is positive: a position that is a real number has a positive weight
  have hL : 0 < ∑ s : Fin 16384, p s := by
    apply Finset.sum_pos'
    · intro s _
      exact hp0 s
    · refine ⟨s₀, Finset.mem_univ _, ?_⟩
      obtain ⟨r, hr⟩ : ∃ r : ℝ, u s₀ = (r : EReal) := ⟨_, (EReal.coe_toReal (hu s₀) hs₀).symm⟩
      have h2 := hp s₀
      rw [hr, hM, ← EReal.coe_sub, Ideal.exp_coe, EReal.coe_eq_coe_iff] at h2
      rw [← h2]
      exact Real.exp_pos _
  have hLne : (∑ s : Fin 16384, p s) ≠ 0 := ne_of_gt hL
  rw [merged_eq, softmaxOut_eq, h0, h1]
  simp only [cf]
  rw [hMeq, hnum, hden]
  -- both sides are now quotients of real sums
  simp only [hp, hq, ← EReal.coe_mul, coe_sum, Ideal.div_coe hLne]
  rw [EReal.coe_eq_coe_iff, Finset.sum_mul]
  apply Finset.sum_congr rfl
  intro s _
  ring

end Cert.Attn

end
-- ==== Proof.KernelRun.lean ====
/-
  The kernel's run, read: its two results as the specification's functions of the six arguments.

  The arrays the region finds are the arguments re-laid by the host (the encoder output with its unit axis dropped, the
  mask transposed and widened, d = dec · W2ᵀ, W1 and V in the product's format), so the masked logits and encoder rows the
  grid walks are the specification's. The host lines after the region merge the two cores' final states and take the
  quotient; with the two-core online softmax being the softmax, the first result is the softmax-weighted sum of the encoder
  rows, and the second result is the logits row re-laid as a column.
-/
import proofs.«423131_j63548336112291_3_alg».proof.Proof.Arrays
import proofs.«423131_j63548336112291_3_alg».proof.Proof.HostSides
import proofs.«423131_j63548336112291_3_alg».proof.Proof.LogitReal
import proofs.«423131_j63548336112291_3_alg».proof.Proof.SoftmaxMath

set_option maxRecDepth 16384

noncomputable section

namespace Cert.KernelIdeal.KRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.State Cert.KernelIdeal.Arrays
open scoped BigOperators

variable (m : (ℓ : Loc nD τ sig) → Buf (Elt Ideal) ℓ) (ρ : Dev nD → PrngReg)

/-- The masked logits the grid walks are the specification's, of the six arguments. -/
theorem uV_eq (c : Dev nD) : uV m c = (Cert.Attn.maskedLogit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  funext s
  unfold uV Cert.Attn.maskedLogit
  by_cases hm : (m ((c.tc : Thread nD τ).loc main_arg2)) (ix2 s (0 : Fin 1)) = 1#1
  · rw [if_pos hm, if_neg]
    intro h0
    exact ((HostSides.V_v5 m c s).mp h0) hm
  · rw [if_neg hm, if_pos ((HostSides.V_v5 m c s).mpr hm)]
    unfold Cert.Attn.logit Cert.Attn.act
    refine Finset.sum_congr rfl fun a _ => ?_
    have hv4 : vArr m c (ix2 (0 : Fin 1) a) = (m ((c.tc : Thread nD τ).loc main_arg5)) (ix2 (0 : Fin 1) a) := HostSides.V_v4 m c (ix2 (0 : Fin 1) a)
    have hv2 : dArr m c (ix2 (0 : Fin 1) a) = Cert.Attn.dvec (m ((c.tc : Thread nD τ).loc main_arg1)) (m ((c.tc : Thread nD τ).loc main_arg3)) a := HostSides.V_v2 m c a
    rw [hv4, hv2]
    congr 3
    refine Finset.sum_congr rfl fun h _ => ?_
    have hv0 : encArr m c (ix2 s h) = Cert.Attn.encAt (m ((c.tc : Thread nD τ).loc main_arg0)) s h := HostSides.V_v0 m c s h
    have hv3 : w1Arr m c (ix2 a h) = (m ((c.tc : Thread nD τ).loc main_arg4)) (ix2 a h) := HostSides.V_v3 m c (ix2 a h)
    rw [hv0, hv3]

/-- The encoder rows the grid walks are the specification's. -/
theorem eV_eq (c : Dev nD) : eV m c = Cert.Attn.encAt (m ((c.tc : Thread nD τ).loc main_arg0)) := by
  funext s h
  exact HostSides.V_v0 m c s h

/-- The first result: the softmax-weighted sum of the encoder rows. -/
abbrev outFn (c : Dev nD) : Buf (Elt Ideal) ((c.tc : Thread nD τ).loc main_v21) :=
  fun j => Cert.Attn.softmaxOut (Cert.Attn.maskedLogit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (Cert.Attn.encAt (m ((c.tc : Thread nD τ).loc main_arg0))) (j 0)

/-- The second result: the masked logits, as a column. -/
abbrev logitFn (c : Dev nD) : Buf (Elt Ideal) ((c.tc : Thread nD τ).loc main_v22) :=
  fun j => Cert.Attn.maskedLogit (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (j 0)

/-- What the host lines after the region leave in the first result. -/
theorem tail_out_eq (c : Dev nD) (hE : ∀ i, ∃ r : ℝ, (m ((c.tc : Thread nD τ).loc main_arg0)) i = (r : EReal)) (hV : ∀ i, ∃ r : ℝ, (m ((c.tc : Thread nD τ).loc main_arg5)) i = (r : EReal))
    (hM : ∃ s : Fin 16384, (m ((c.tc : Thread nD τ).loc main_arg2)) (ix2 s (0 : Fin 1)) ≠ 1#1) :
    Pipeline.afterTail₀ cfgs (dats m) 0 (V0 m) [hostOps1] c main_v21 = outFn m c := by
  funext j
  obtain ⟨h, rfl⟩ : ∃ h : Fin 1024, j = ix1 h := ⟨j 0, eq_ix1 j⟩
  unfold Pipeline.afterTail₀
  simp only [List.flatten_cons, List.flatten_nil, List.append_nil]
  rw [HostSides.tail_out]
  have e6 : (Pipeline.withArrays (cfgs 0).spec c (V0 m c) fun w => (dats m 0 c).arrAt w (cfgs 0).N) (Proc.devRef .tc main_v6_1) = maxArr m c :=
    (Pipeline.withArrays_arr (τ := τ) spec0 launch0.win.arr_inj c (V0 m c) (fun w => (dats m 0 c).arrAt w cfg0.N) (6 : Fin 9)).trans (final_max m c)
  have e7 : (Pipeline.withArrays (cfgs 0).spec c (V0 m c) fun w => (dats m 0 c).arrAt w (cfgs 0).N) (Proc.devRef .tc main_v6_2) = normArr m c :=
    (Pipeline.withArrays_arr (τ := τ) spec0 launch0.win.arr_inj c (V0 m c) (fun w => (dats m 0 c).arrAt w cfg0.N) (7 : Fin 9)).trans (final_norm m c)
  have e8 : (Pipeline.withArrays (cfgs 0).spec c (V0 m c) fun w => (dats m 0 c).arrAt w (cfgs 0).N) (Proc.devRef .tc main_v6_3) = accArr m c :=
    (Pipeline.withArrays_arr (τ := τ) spec0 launch0.win.arr_inj c (V0 m c) (fun w => (dats m 0 c).arrAt w cfg0.N) (8 : Fin 9)).trans (final_acc m c)
  rw [e6, e7, e8]
  rw [core_state m c 0, core_state m c 1, coreSt_zero, coreSt_one]
  show _ = Cert.Attn.softmaxOut _ _ h
  rw [uV_eq, eV_eq]
  obtain ⟨s0, hs0⟩ := hM
  exact Cert.Attn.merged_eq_softmaxOut _ _
    (fun s => Cert.Attn.maskedLogit_ne_top _ _ _ _ _ _ hV s)
    ⟨s0, Cert.Attn.maskedLogit_ne_bot_of_unmasked _ _ _ _ _ _ hV s0 hs0⟩
    (fun s k => hE (ix3 s (0 : Fin 1) k)) h

/-- What the host lines after the region leave in the second result. -/
theorem tail_logits_eq (c : Dev nD) :
    Pipeline.afterTail₀ cfgs (dats m) 0 (V0 m) [hostOps1] c main_v22 = logitFn m c := by
  funext j
  obtain ⟨s, rfl⟩ : ∃ s : Fin 16384, j = ix2 s (0 : Fin 1) := ⟨j 0, (eq_ix2 j).trans (by congr 1; exact fin_one_eq _ _)⟩
  unfold Pipeline.afterTail₀
  simp only [List.flatten_cons, List.flatten_nil, List.append_nil]
  rw [HostSides.tail_u]
  have e5 : (Pipeline.withArrays (cfgs 0).spec c (V0 m c) fun w => (dats m 0 c).arrAt w (cfgs 0).N) (Proc.devRef .tc main_v6_0) = uRow m c :=
    (Pipeline.withArrays_arr (τ := τ) spec0 launch0.win.arr_inj c (V0 m c) (fun w => (dats m 0 c).arrAt w cfg0.N) (5 : Fin 9)).trans (final_logits m c)
  rw [e5]
  show uV m c s = _
  rw [uV_eq]
  rfl

/-- The kernel's run with its results read: under real encoder and scoring entries and a mask that leaves some position
    open, every weakly fair execution ends with the first result at the softmax-weighted sum, the second at the masked
    logits, and the six arguments as they were. -/
theorem run (hE : ∀ (c : Dev nD) i, ∃ r : ℝ, (m ((c.tc : Thread nD τ).loc main_arg0)) i = (r : EReal)) (hV : ∀ (c : Dev nD) i, ∃ r : ℝ, (m ((c.tc : Thread nD τ).loc main_arg5)) i = (r : EReal))
    (hM : ∀ c : Dev nD, ∃ s : Fin 16384, (m ((c.tc : Thread nD τ).loc main_arg2)) (ix2 s (0 : Fin 1)) ≠ 1#1) :
    θ_run defs (onTc (τ := τ) (main (F := Ideal))) ⟨m, fun _ => 0, ρ⟩ fun r => ∀ c : Dev nD,
      r.2.mem ((c.tc : Thread nD τ).loc main_v21) = outFn m c
      ∧ r.2.mem ((c.tc : Thread nD τ).loc main_v22) = logitFn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v21 (Pipeline.mem_restRefs_of main_v21 (by decide) (by decide))).trans (tail_out_eq m c (hE c) (hV c) (hM c)),
      ((h c).2 main_v22 (Pipeline.mem_restRefs_of main_v22 (by decide) (by decide))).trans (tail_logits_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KRun

end
-- ==== Proof.RefValue.lean ====
/-
  The reference's two results, read index by index.

  The reference is a chain of array operations. Read at an index, each of them is one arithmetic step on entries of its
  operands: a reshape, a transpose or a broadcast reads one entry of its operand; a matrix product is the sum over the
  contracted axis of the products; a sum over positions is its initial value plus the sum of the entries; the maximum
  over positions is the fold of max from its initial value. Following the chain from the two results back to the six
  arguments gives

  • the masked logit of position s: -∞ where the mask bit is set, and otherwise
      ∑ a, tanh (d a + ∑ h, enc s h · W1 a h) · V a     with  d a = ∑ h, dec h · W2 a h;
  • the output at h: 0 + ∑ s, exp (u s - M) / (0 + ∑ s', exp (u s' - M)) · enc s h, where u is the masked logit and
    M = max -∞ (the maximum of u over all positions, folded from -∞).

  The only algebra used is the commutativity of the product tanh (…) · V a = V a · tanh (…).
-/
import proofs.«423131_j63548336112291_3_alg».proof.Proof.Gen.ReferenceIdeal.Read
import proofs.«423131_j63548336112291_3_alg».proof.Proof.Spec
import proofs.«423131_j63548336112291_3_alg».proof.Proof.SpecLogit
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo
open scoped BigOperators

variable (x0 : (⟨S16384x1x1024, .f32⟩ : BufTy).Contents (Elt Ideal)) (x1 : (⟨S1x1024, .f32⟩ : BufTy).Contents (Elt Ideal))
  (x2 : (⟨S16384x1, .i1⟩ : BufTy).Contents (Elt Ideal)) (x3 x4 : (⟨S1024x1024, .f32⟩ : BufTy).Contents (Elt Ideal))
  (x5 : (⟨S1x1024, .f32⟩ : BufTy).Contents (Elt Ideal))

/-! ## The two words -/

/-- The word 0xFF800000 denotes -∞. -/
theorem ninf_word : Ideal.ofBits .f32 0xFF800000#32 = ⊥ := by simp [Ideal.ofBits, Ideal.ieee]

/-! ## The logit -/

/-- Entry (s, k) of the reshaped encoder output is entry (s, 0, k) of the encoder output: s · 1024 + k divided by 1024
    is s with remainder k. -/
theorem enc_apply (s : Fin 16384) (k : Fin 1024) :
    Read.val_main_v0 (F := Ideal) x0 (ix2 s k) = Cert.Attn.encAt x0 s k := by
  rw [Read.val_main_v0_apply]
  refine congrArg x0 (funext fun a => Fin.ext ?_)
  match a with
  | ⟨0, _⟩ => show (s.val * 1024 + k.val) / 1024 = s.val; have := k.isLt; omega
  | ⟨1, _⟩ => rfl
  | ⟨2, _⟩ => show (s.val * 1024 + k.val) % 1024 = k.val; have := k.isLt; omega

/-- Entry (k, a) of the transposed W2 is entry (a, k) of W2. -/
theorem w2T_apply (k a : Fin 1024) : Read.val_main_v1 (F := Ideal) x3 (ix2 k a) = x3 (ix2 a k) := by
  rw [Read.val_main_v1_apply]
  exact congrArg x3 (funext fun d => by match d with | ⟨0, _⟩ => rfl | ⟨1, _⟩ => rfl)

/-- Entry (k, a) of the transposed W1 is entry (a, k) of W1. -/
theorem w1T_apply (k a : Fin 1024) : Read.val_main_v3 (F := Ideal) x4 (ix2 k a) = x4 (ix2 a k) := by
  rw [Read.val_main_v3_apply]
  exact congrArg x4 (funext fun d => by match d with | ⟨0, _⟩ => rfl | ⟨1, _⟩ => rfl)

/-- Entry (a, 0) of the transposed V is entry (0, a) of V. -/
theorem vT_apply (a : Fin 1024) : Read.val_main_v8 (F := Ideal) x5 (ix2 a (0 : Fin 1)) = x5 (ix2 (0 : Fin 1) a) := by
  rw [Read.val_main_v8_apply]
  exact congrArg x5 (funext fun d => by match d with | ⟨0, _⟩ => rfl | ⟨1, _⟩ => rfl)

/-- The decoder's projection: entry (0, a) of dec · W2ᵀ is ∑ h, dec h · W2 a h. -/
theorem d_apply (a : Fin 1024) :
    Read.val_main_v2 (F := Ideal) x1 x3 (ix2 (0 : Fin 1) a) = Cert.Attn.dvec x1 x3 a := by
  rw [Read.val_main_v2_apply]
  unfold Cert.Attn.dvec
  refine Finset.sum_congr rfl fun k _ => ?_
  have el : Read.lidx_main_v2 (ix2 (0 : Fin 1) a) k = ix2 (0 : Fin 1) k :=
    funext fun d => by match d with | ⟨0, _⟩ => rfl | ⟨1, _⟩ => rfl
  have er : Read.ridx_main_v2 (ix2 (0 : Fin 1) a) k = ix2 k a :=
    funext fun d => by match d with | ⟨0, _⟩ => rfl | ⟨1, _⟩ => rfl
  rw [el, er, w2T_apply]

/-- The encoder's projection: entry (s, a) of enc · W1ᵀ is ∑ h, enc s h · W1 a h. -/
theorem e_apply (s : Fin 16384) (a : Fin 1024) :
    Read.val_main_v4 (F := Ideal) x0 x4 (ix2 s a) = ∑ h : Fin 1024, Cert.Attn.encAt x0 s h * x4 (ix2 a h) := by
  rw [Read.val_main_v4_apply]
  refine Finset.sum_congr rfl fun k _ => ?_
  have el : Read.lidx_main_v4 (ix2 s a) k = ix2 s k :=
    funext fun d => by match d with | ⟨0, _⟩ => rfl | ⟨1, _⟩ => rfl
  have er : Read.ridx_main_v4 (ix2 s a) k = ix2 k a :=
    funext fun d => by match d with | ⟨0, _⟩ => rfl | ⟨1, _⟩ => rfl
  rw [el, er, enc_apply, w1T_apply]

/-- The activation of position s, unit a: tanh of the broadcast projection d a plus the encoder's projection. -/
theorem act_apply (s : Fin 16384) (a : Fin 1024) :
    Read.val_main_v7 (F := Ideal) x0 x1 x3 x4 (ix2 s a) = Cert.Attn.act x0 x1 x3 x4 s a := by
  have e5 : Read.idx_main_v5 (ix2 s a) = ix2 (0 : Fin 1) a :=
    funext fun d => by match d with | ⟨0, _⟩ => rfl | ⟨1, _⟩ => rfl
  rw [Read.val_main_v7_apply, Read.val_main_v6_apply, Read.val_main_v5_apply, e5, d_apply, e_apply,
    Ideal.hostUnary_tanh_def, Ideal.addf_def]
  rfl

/-- The logit before masking: the product of the activations with Vᵀ, each summand tanh (…) · V a turned round. -/
theorem logit_apply (s : Fin 16384) :
    Read.val_main_v9 (F := Ideal) x0 x1 x3 x4 x5 (ix2 s (0 : Fin 1)) = Cert.Attn.logit x0 x1 x3 x4 x5 s := by
  rw [Read.val_main_v9_apply]
  unfold Cert.Attn.logit
  refine Finset.sum_congr rfl fun a _ => ?_
  have el : Read.lidx_main_v9 (ix2 s (0 : Fin 1)) a = ix2 s a :=
    funext fun d => by match d with | ⟨0, _⟩ => rfl | ⟨1, _⟩ => rfl
  have er : Read.ridx_main_v9 (ix2 s (0 : Fin 1)) a = ix2 a (0 : Fin 1) :=
    funext fun d => by match d with | ⟨0, _⟩ => rfl | ⟨1, _⟩ => rfl
  rw [el, er, act_apply, vT_apply, mul_comm]

/-- The masked logit: the select reads -∞ (the broadcast constant) where the mask bit is 1, the logit elsewhere. -/
theorem u_apply (s : Fin 16384) :
    Read.val_main_v10 (F := Ideal) x0 x1 x2 x3 x4 x5 (ix2 s (0 : Fin 1)) = Cert.Attn.maskedLogit x0 x1 x2 x3 x4 x5 s := by
  rw [Read.val_main_v10_apply, Read.val_main_call0_v1_apply, Read.val_main_call0_v0_apply, Read.val_main_cst_apply,
    Ideal.ofBits_def, ninf_word, logit_apply]
  rfl

/-! ## The softmax -/

/-- The maximum over positions: the fold of max from -∞ over the masked logits. The reduced index with position k put
    back is (k, 0). -/
theorem max_apply (i : S1.Idx) :
    Read.val_main_v11 (F := Ideal) x0 x1 x2 x3 x4 x5 i
      = (Finset.univ : Finset (Fin 16384)).fold max ⊥ (Cert.Attn.maskedLogit x0 x1 x2 x3 x4 x5) := by
  unfold Read.val_main_v11
  have h : S16384x1.Reduces [0] S1 := by decide
  rw [Host.reduce_eq_fold_single FloatOps.maximumf _ _ reducesTo_S16384x1_S1_d0 h h_S_ i]
  have hinit : Read.val_main_cst_0 (F := Ideal) (Shape.Idx.first h_S_) = ⊥ := by
    rw [Read.val_main_cst_0_apply, Ideal.ofBits_def, ninf_word]
  have hf : (Read.val_main_v10 (F := Ideal) x0 x1 x2 x3 x4 x5 ∘ h.lift i)
      = fun k : Fin 16384 => Cert.Attn.maskedLogit x0 x1 x2 x3 x4 x5 k := funext fun k => by
    have e : h.lift i k = ix2 (⟨k.val, k.isLt⟩ : Fin 16384) (0 : Fin 1) := funext fun c => Fin.ext (by
      match c with
      | ⟨0, _⟩ => rfl
      | ⟨1, _⟩ => exact Fin.val_eq_zero _)
    show Read.val_main_v10 (F := Ideal) x0 x1 x2 x3 x4 x5 (h.lift i k) = _
    rw [e, u_apply]
    rfl
  rw [hinit]
  exact congrArg (fun f => Finset.fold max ⊥ f (Finset.univ : Finset (Fin 16384))) hf

/-- The softmax's numerator at position s: exp (u s - M), M = max -∞ (the maximum over positions), the maximum broadcast
    back to every position. -/
theorem num_apply (s : Fin 16384) :
    Read.val_main_v17 (F := Ideal) x0 x1 x2 x3 x4 x5 (ix2 s (0 : Fin 1))
      = Ideal.exp (Cert.Attn.maskedLogit x0 x1 x2 x3 x4 x5 s
          - max ⊥ ((Finset.univ : Finset (Fin 16384)).fold max ⊥ (Cert.Attn.maskedLogit x0 x1 x2 x3 x4 x5))) := by
  rw [Read.val_main_v17_apply, Read.val_main_v16_apply, Ideal.hostUnary_exp_def, Ideal.subf_def, u_apply,
    Read.val_main_v15_apply, Read.val_main_v14_apply, Read.val_main_v13_apply, Ideal.maximumf_def, Read.val_main_v12_apply,
    Read.val_main_cst_1_apply, Ideal.ofBits_def, ninf_word, max_apply]

/-- The softmax's normaliser: 0 plus the sum of the numerators over all positions. -/
theorem den_apply (i : S1.Idx) :
    Read.val_main_v18 (F := Ideal) x0 x1 x2 x3 x4 x5 i
      = 0 + ∑ s' : Fin 16384, Ideal.exp (Cert.Attn.maskedLogit x0 x1 x2 x3 x4 x5 s'
          - max ⊥ ((Finset.univ : Finset (Fin 16384)).fold max ⊥ (Cert.Attn.maskedLogit x0 x1 x2 x3 x4 x5))) := by
  rw [Read.val_main_v18_apply, Read.val_main_cst_2_apply, Ideal.ofBits_def, Ideal.ofBits_zero_f32]
  refine congrArg (0 + ·) (Finset.sum_congr rfl fun k _ => ?_)
  have e : Read.idx_main_v18 i k = ix2 k (0 : Fin 1) := funext fun c => Fin.ext (by
    match c with
    | ⟨0, _⟩ => rfl
    | ⟨1, _⟩ => exact Fin.val_eq_zero _)
  rw [e, num_apply]

/-- The softmax weight of position s: numerator over normaliser, the normaliser broadcast back to every position. -/
theorem weight_apply (s : Fin 16384) :
    Read.val_main_v21 (F := Ideal) x0 x1 x2 x3 x4 x5 (ix2 s (0 : Fin 1))
      = Ideal.div
          (Ideal.exp (Cert.Attn.maskedLogit x0 x1 x2 x3 x4 x5 s
            - max ⊥ ((Finset.univ : Finset (Fin 16384)).fold max ⊥ (Cert.Attn.maskedLogit x0 x1 x2 x3 x4 x5))))
          (0 + ∑ s' : Fin 16384, Ideal.exp (Cert.Attn.maskedLogit x0 x1 x2 x3 x4 x5 s'
            - max ⊥ ((Finset.univ : Finset (Fin 16384)).fold max ⊥ (Cert.Attn.maskedLogit x0 x1 x2 x3 x4 x5)))) := by
  rw [Read.val_main_v21_apply, Ideal.hostDivf_def, num_apply, Read.val_main_v20_apply, Read.val_main_v19_apply, den_apply]

/-! ## The two results -/

/-- The first result at h: 0 plus the sum over positions of the softmax weight times the encoder output's entry. -/
theorem out_apply (h : Fin 1024) :
    Read.val_main_v24 (F := Ideal) x0 x1 x2 x3 x4 x5 (ix1 h)
      = Cert.Attn.softmaxOut (Cert.Attn.maskedLogit x0 x1 x2 x3 x4 x5) (Cert.Attn.encAt x0) h := by
  rw [Read.val_main_v24_apply, Read.val_main_cst_3_apply, Ideal.ofBits_def, Ideal.ofBits_zero_f32]
  unfold Cert.Attn.softmaxOut
  refine congrArg (0 + ·) (Finset.sum_congr rfl fun s _ => ?_)
  have e24 : Read.idx_main_v24 (ix1 h) s = ix2 s h :=
    funext fun d => by match d with | ⟨0, _⟩ => rfl | ⟨1, _⟩ => rfl
  have e22 : Read.idx_main_v22 (ix2 s h) = ix2 s (0 : Fin 1) :=
    funext fun d => by match d with | ⟨0, _⟩ => rfl | ⟨1, _⟩ => rfl
  rw [e24, Read.val_main_v23_apply, Ideal.mulf_def, Read.val_main_v22_apply, e22, weight_apply, enc_apply]

/-! ## The reference's run, with its two results as the mathematics above -/

/-- Every weakly fair execution of the reference ends with the first result the softmax-weighted sum of the encoder
    output's rows, the second the masked logits, and the six arguments unchanged. An index of the first result is its one
    coordinate; an index of the second is (s, 0), the second axis having one entry. -/
theorem ref_run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v24)
          = (fun j => Cert.Attn.softmaxOut
              (Cert.Attn.maskedLogit (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5)))
              (Cert.Attn.encAt (m ((c.tc : Thread nD τ).loc main_arg0))) (j 0))
      ∧ r.2.mem ((c.tc : Thread nD τ).loc main_v10)
          = (fun j => Cert.Attn.maskedLogit (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5)) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c =>
    ⟨(h c).1.trans ((Read.val_main_v24_eq m c).trans (funext fun j =>
        (congrArg (Read.val_main_v24 (F := Ideal) _ _ _ _ _ _) (eq_ix1 j)).trans (out_apply _ _ _ _ _ _ (j 0)))),
      (h c).2.1.trans ((Read.val_main_v10_eq _ _ _ _ _ _).trans (funext fun j =>
        (congrArg (Read.val_main_v10 (F := Ideal) _ _ _ _ _ _)
          ((eq_ix2 j).trans (congrArg (ix2 (j 0)) (Subsingleton.elim (α := Fin 1) (j 1) 0)))).trans
          (u_apply _ _ _ _ _ _ (j 0)))),
      (h c).2.2⟩)
    (Cert.ReferenceIdeal.Value.run (F := Ideal) m ρ)

end Cert.ReferenceIdeal.RefValue

end
-- ==== Proof.PreRead.lean ====
/-
  The precondition, read back into mathematics.

  The precondition is a chain of boolean operations on six arrays: for each of the five real-valued inputs, the
  conjunction over every entry x of "|x| < +∞"; and the negation of the conjunction over every position of the mask bit.
  Each conjunction is a fold of "and" from 1 over all entries, so it is 1 exactly when every entry is 1.

  • |x| = max x (-x) is below +∞ exactly when x is neither +∞ nor -∞, that is, when x is a real number.
  • A fold of "and" from 1 over bits that are all 1 is 1; so if the fold over the mask is not 1, some mask bit is not 1:
    some position is unmasked.
-/
import proofs.«423131_j63548336112291_3_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreRead

open Idealize.ShloMosaic Idealize.ShloMosaic.ValueIdx
open Cert.Pre_finite_inputs

/-- The rank-0 shape has exactly one index. -/
local instance subsingleton_scalarIdx : Subsingleton S_.Idx := ⟨fun _ _ => funext fun d => d.elim0⟩

/-- The word 0x7F800000 denotes +∞. -/
theorem inf_word : Ideal.ofBits .f32 0x7F800000#32 = ⊤ := by simp [Ideal.ofBits, Ideal.ieee]

/-- An extended real whose absolute value max x (-x) is strictly below +∞ is a real number:
    at x = +∞ the maximum is +∞, and at x = -∞ it is -(-∞) = +∞. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_word] at h'
  induction x using EReal.rec with
  | bot => simp [Ideal.cmp] at h'
  | coe r => exact ⟨r, rfl⟩
  | top => simp [Ideal.cmp] at h'

/-- If the conjunction over all entries of "|a i| < +∞" is 1, every entry of a is a real number. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ix0 = 1#1)
    (i : s.Idx) : ∃ r : ℝ, a i = (r : EReal) :=
  real_of_abs_lt_inf (a i) (Host.reduce_andi_all _ _ hr hu ix0 h i)

/-- A left fold of "and" that starts at 1 and meets only 1s is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    exact foldl_andi_of_all_one f l _ (IntOp.andi_eq_one.2 ⟨hi, hl a (List.mem_cons_self ..)⟩)
      (fun n hn => hl n (List.mem_cons_of_mem _ hn))

/-- A conjunction over an array of bits that are all 1, started at 1, is 1 at every result index. -/
theorem reduce_andi_of_all_one {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl]
  exact foldl_andi_of_all_one x _ _ hi (fun n _ => hx n)

/-- If the negated conjunction of all mask bits is 1, some mask bit is not 1: were every bit 1, the conjunction
    would be 1 and its negation 0. -/
theorem exists_unmasked (a2 : IVec S16384x1 1) (hr : S16384x1.ReducesTo [0, 1] S_) (hu : 0 < S_.numel)
    (h : noti (Host.reduce IntOp.andi a2 (constantI S_ 1 1#1) hr hu) ix0 = 1#1) :
    ∃ s : Fin 16384, a2 (ix2 s (0 : Fin 1)) ≠ 1#1 := by
  have h' : ¬ Host.reduce IntOp.andi a2 (constantI S_ 1 1#1) hr hu ix0 = 1#1 := IntOp.not_eq_one.1 h
  by_contra hnone
  have hall : ∀ s : Fin 16384, a2 (ix2 s (0 : Fin 1)) = 1#1 := fun s => by_contra fun hs => hnone ⟨s, hs⟩
  refine h' (reduce_andi_of_all_one a2 _ hr hu ix0 rfl fun i => ?_)
  obtain ⟨p, q, rfl⟩ : ∃ (p : Fin 16384) (q : Fin 1), i = ix2 p q := ⟨i 0, i 1, eq_ix2 i⟩
  obtain rfl : q = 0 := Subsingleton.elim _ _
  exact hall p

/-- The precondition decoded: all five real-valued inputs have only real entries, and some position is unmasked. -/
theorem decode [Cert.Pre_finite_inputs.Facts] (a0 : FVec Ideal S16384x1x1024 .f32) (a1 : FVec Ideal S1x1024 .f32)
    (a2 : IVec S16384x1 1) (a3 a4 : FVec Ideal S1024x1024 .f32) (a5 : FVec Ideal S1x1024 .f32)
    (hpre : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a3 i = (r : EReal))
      ∧ (∀ i, ∃ r : ℝ, a4 i = (r : EReal)) ∧ (∀ i, ∃ r : ℝ, a5 i = (r : EReal))
      ∧ ∃ s : Fin 16384, a2 (ix2 s (0 : Fin 1)) ≠ 1#1 := by
  have h := congrFun hpre ValueIdx.ix0
  dsimp only [Cert.Pre_finite_inputs.fn, Cert.Pre_finite_inputs.fn_part1] at h
  obtain ⟨h, hm⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h1⟩ := IntOp.andi_eq_one.1 h
  exact ⟨all_real a0 _ _ _ h0, all_real a1 _ _ _ h1, all_real a3 _ _ _ h3, all_real a4 _ _ _ h4, all_real a5 _ _ _ h5,
    exists_unmasked a2 _ _ hm⟩

end Cert.PreRead

end
-- ==== Proof.lean ====
/-
  The certificate of a masked additive-attention layer computed with a two-core online softmax.

  The kernel walks the 16384 positions in sixteen tiles of 1024, eight per core. For each tile it forms the logits
  u s = ∑ a, V a · tanh (d a + ∑ h, enc s h · W1 a h), with d = dec · W2ᵀ computed once on the host, sets masked positions to
  -∞, and keeps per core a running maximum, normaliser and weighted sum of the encoder rows, rescaling by
  exp (m_old - m_new) whenever the maximum moves; the host then merges the two cores the same way and divides once.
  The reference takes the softmax of the masked logits over all positions and sums the encoder rows with those weights.

  Over the extended reals the two agree whenever the inputs are real numbers and at least one position is unmasked (with
  every position masked the softmax is 0 / 0, which the reference multiplies into each row before summing and the kernel
  takes once at the end): then the common maximum is a real number, every weight exp (u s - M) is a real in [0, 1], the
  normaliser is at least 1, and rescaling distributes over the finite sums. The kernel's stand-in for -∞ inside the running
  maximum is read as -∞ itself, which is what makes the all-masked tiles and cores contribute exactly 0.

  frame claims: the generated frame theorems (kernel programs) and the reference's run with its results dropped.
  preserves: the one named constant denotes -∞ by the certificate's table.
  algebraic: the kernel's run read back (KernelRun), the reference's run read back (RefValue), the precondition decoded
  (PreRead), and the arguments' agreement rewritten.
-/
import proofs.«423131_j63548336112291_3_alg».proof.Defs
import proofs.«423131_j63548336112291_3_alg».proof.Proof.Gen.Kernel
import proofs.«423131_j63548336112291_3_alg».proof.Proof.Gen.Kernel.Skeleton
import proofs.«423131_j63548336112291_3_alg».proof.Proof.Gen.Kernel.Launch
import proofs.«423131_j63548336112291_3_alg».proof.Proof.Gen.Kernel.Points
import proofs.«423131_j63548336112291_3_alg».proof.Proof.Gen.Kernel.Frame
import proofs.«423131_j63548336112291_3_alg».proof.Proof.Gen.KernelIdeal
import proofs.«423131_j63548336112291_3_alg».proof.Proof.Gen.KernelIdeal.Skeleton
import proofs.«423131_j63548336112291_3_alg».proof.Proof.Gen.KernelIdeal.Launch
import proofs.«423131_j63548336112291_3_alg».proof.Proof.Gen.KernelIdeal.Points
import proofs.«423131_j63548336112291_3_alg».proof.Proof.Gen.KernelIdeal.Frame
import proofs.«423131_j63548336112291_3_alg».proof.Proof.Gen.ReferenceIdeal
import proofs.«423131_j63548336112291_3_alg».proof.Proof.Gen.Pre_finite_inputs
import proofs.«423131_j63548336112291_3_alg».proof.Proof.KernelRun
import proofs.«423131_j63548336112291_3_alg».proof.Proof.RefValue
import proofs.«423131_j63548336112291_3_alg».proof.Proof.PreRead
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.RefValue.ref_run m ρ)

/-- The one rewrite of the ideal pass: the finite fill inside the running maximum is named, and its name denotes -∞. -/
theorem preserves : Cert.preserves_Kernel_KernelIdeal :=
  IdealRules.named_const.statement Cert.KernelIdeal.κ "neg_big" .f32 0xFF333332#32 ⊥ rfl

/-- Both idealized programs end with the softmax-weighted sum of the encoder rows and the masked logits. -/
theorem algebraic : Cert.algebraic_KernelIdeal_ReferenceIdeal := by
  intro m ρ m' ρ' hpre hagree
  have hdec := fun c => Cert.PreRead.decode _ _ _ _ _ _ (hpre c)
  refine ⟨fun c => Cert.KernelIdeal.KRun.outFn m c, fun c => Cert.KernelIdeal.KRun.logitFn m c,
    Cert.KernelIdeal.KRun.run m ρ (fun c => (hdec c).1) (fun c => (hdec c).2.2.2.2.1) (fun c => (hdec c).2.2.2.2.2), ?_⟩
  refine (θ_run Cert.ReferenceIdeal.defs _ _).mono (fun _ h c => ⟨(h c).1.trans ?_, (h c).2.1.trans ?_, (h c).2.2⟩)
    (Cert.ReferenceIdeal.RefValue.ref_run m' ρ')
  · rw [(hagree c).1, (hagree c).2.1, (hagree c).2.2.1, (hagree c).2.2.2.1, (hagree c).2.2.2.2.1, (hagree c).2.2.2.2.2]
    rfl
  · rw [(hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
